-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_v43 : IVec S_ 1) (main_v47 : IVec S1600000 1) (main_v51 : IVec S1600000 1) : IVec S_ 1 :=
  let main_v52 : IVec S1600000 1 := andi main_v47 main_v51
  let main_c_18 : IVec S_ 1 := constantI S_ 1 1#1
  let main_v53 : IVec S_ 1 := (fun x v => Host.reduce IntOp.andi x v reducesTo_S1600000_S_d0 h_S_) main_v52 main_c_18
  let main_v54 : IVec S_ 1 := andi main_v43 main_v53
  main_v54

def fn_part2 {F : FTy → Type} [FloatOps F] (main_arg1 : IVec S2x1600000 32) (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : IVec S1x1600000 32 := (extractStridedSlice S1x1600000 ![0, 0] · slices_S2x1600000_S1x1600000_0_0) main_arg1
  let main_v45 : IVec S1600000 32 := shapeCast S1600000 main_v44 shapeCasts_S1x1600000_S1600000
  let main_c_16 : IVec S_ 32 := constantI S_ 32 0#32
  let main_v46 : IVec S1600000 32 := broadcastInDim S1600000 ![] bcast_S_S1600000 main_c_16
  let main_v47 : IVec S1600000 1 := cmpi .sge main_v45 main_v46
  let main_v48 : IVec S1x1600000 32 := (extractStridedSlice S1x1600000 ![0, 0] · slices_S2x1600000_S1x1600000_0_0) main_arg1
  let main_v49 : IVec S1600000 32 := shapeCast S1600000 main_v48 shapeCasts_S1x1600000_S1600000
  let main_c_17 : IVec S_ 32 := constantI S_ 32 100000#32
  let main_v50 : IVec S1600000 32 := broadcastInDim S1600000 ![] bcast_S_S1600000 main_c_17
  let main_v51 : IVec S1600000 1 := cmpi .slt main_v49 main_v50
  fn_part3 (F := F) main_v43 main_v47 main_v51

def fn_part1 {F : FTy → Type} [FloatOps F] (main_arg1 : IVec S2x1600000 32) (main_arg5 : FVec F S128 .f32) (main_arg6 : FVec F S128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1 : Shape := ⟨1, ![1]⟩
abbrev S1x1 : Shape := ⟨2, ![1, 1]⟩
abbrev S1700000x128 : Shape := ⟨2, ![1700000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 120
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1, .i32⟩
  | .hbm, ⟨60, _⟩ => ⟨S_, .i32⟩
  | .hbm, ⟨61, _⟩ => ⟨S1700000x1, .i32⟩
  | .hbm, ⟨62, _⟩ => ⟨S1700000x1, .i1⟩
  | .hbm, ⟨63, _⟩ => ⟨S1x1, .i32⟩
  | .hbm, ⟨64, _⟩ => ⟨S1700000x1, .i32⟩
  | .hbm, ⟨65, _⟩ => ⟨S1700000x1, .i1⟩
  | .hbm, ⟨66, _⟩ => ⟨S1700000x1, .i1⟩
  | .hbm, ⟨67, _⟩ => ⟨S_, .i1⟩
  | .hbm, ⟨68, _⟩ => ⟨S1700000, .i1⟩
  | .hbm, ⟨69, _⟩ => ⟨S1700000x128, .f32⟩
  | .hbm, ⟨70, _⟩ => ⟨S1700000x128, .i1⟩
  | .hbm, ⟨71, _⟩ => ⟨S_, .f32⟩
  | .hbm, ⟨72, _⟩ => ⟨S1700000x128, .f32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1, .i32⟩
  | .hbm, ⟨95, _⟩ => ⟨S_, .i32⟩
  | .hbm, ⟨96, _⟩ => ⟨S1700000x1, .i32⟩
  | .hbm, ⟨97, _⟩ => ⟨S1700000x1, .i1⟩
  | .hbm, ⟨98, _⟩ => ⟨S1x1, .i32⟩
  | .hbm, ⟨99, _⟩ => ⟨S1700000x1, .i32⟩
  | .hbm, ⟨100, _⟩ => ⟨S1700000x1, .i1⟩
  | .hbm, ⟨101, _⟩ => ⟨S1700000x1, .i1⟩
  | .hbm, ⟨102, _⟩ => ⟨S_, .i1⟩
  | .hbm, ⟨103, _⟩ => ⟨S1700000, .i1⟩
  | .hbm, ⟨104, _⟩ => ⟨S1700000x128, .f32⟩
  | .hbm, ⟨105, _⟩ => ⟨S1700000x128, .i1⟩
  | .hbm, ⟨106, _⟩ => ⟨S_, .f32⟩
  | .hbm, ⟨107, _⟩ => ⟨S1700000x128, .f32⟩
  | .hbm, ⟨108, _⟩ => ⟨S1700000x128, .f32⟩
  | .hbm, ⟨109, _⟩ => ⟨S1700000x1, .f32⟩
  | .hbm, ⟨110, _⟩ => ⟨S1700000x128, .f32⟩
  | .hbm, ⟨111, _⟩ => ⟨S1700000x128, .f32⟩
  | .hbm, ⟨112, _⟩ => ⟨S_, .f32⟩
  | .hbm, ⟨113, _⟩ => ⟨S100000x128, .f32⟩
  | .hbm, ⟨114, _⟩ => ⟨S1700000x1, .i32⟩
  | .hbm, ⟨115, _⟩ => ⟨S100000x128, .f32⟩
  | .hbm, ⟨116, _⟩ => ⟨S1x128, .f32⟩
  | .hbm, ⟨117, _⟩ => ⟨S1x128, .f32⟩
  | .hbm, ⟨118, _⟩ => ⟨S1x128, .f32⟩
  | .hbm, ⟨119, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_6 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_cst_7 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 190
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S100000, .i32⟩
  | 15 => ⟨S1700000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x128, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S_, .f32⟩
  | 74 => ⟨S100000, .f32⟩
  | 75 => ⟨S100000x1, .f32⟩
  | 76 => ⟨S_, .f32⟩
  | 77 => ⟨S100000x1, .f32⟩
  | 78 => ⟨S100000x1, .f32⟩
  | 79 => ⟨S100000x128, .f32⟩
  | 80 => ⟨S100000x128, .f32⟩
  | 81 => ⟨S100000x128, .f32⟩
  | 82 => ⟨S_, .f32⟩
  | 83 => ⟨S100000, .f32⟩
  | 84 => ⟨S100000x1, .f32⟩
  | 85 => ⟨S_, .f32⟩
  | 86 => ⟨S100000x1, .f32⟩
  | 87 => ⟨S100000x1, .f32⟩
  | 88 => ⟨S100000x128, .f32⟩
  | 89 => ⟨S100000x128, .f32⟩
  | 90 => ⟨S_, .f32⟩
  | 91 => ⟨S100000x1, .f32⟩
  | 92 => ⟨S100000x1, .f32⟩
  | 93 => ⟨S100000x1, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S100000, .i32⟩
  | 103 => ⟨S1700000, .i32⟩
  | 104 => ⟨S1700000, .i32⟩
  | 105 => ⟨S_, .f32⟩
  | 106 => ⟨S1700000, .f32⟩
  | 107 => ⟨S_, .f32⟩
  | 108 => ⟨S100000, .f32⟩
  | 109 => ⟨S1700000x1, .i32⟩
  | 110 => ⟨S100000, .f32⟩
  | 111 => ⟨S_, .f32⟩
  | 112 => ⟨S100000, .f32⟩
  | 113 => ⟨S100000, .i1⟩
  | 114 => ⟨S100000, .f32⟩
  | 115 => ⟨S_, .f32⟩
  | 116 => ⟨S_, .f32⟩
  | 117 => ⟨S100000, .f32⟩
  | 118 => ⟨S100000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000, .f32⟩
  | 9 => ⟨S1700000, .f32⟩
  | 10 => ⟨S100000x128, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000x128, .f32⟩
  | 20 => ⟨S1700000x1, .f32⟩
  | 21 => ⟨S1700000x128, .f32⟩
  | 22 => ⟨S1700000x128, .f32⟩
  | 23 => ⟨S_, .f32⟩
  | 24 => ⟨S100000x128, .f32⟩
  | 25 => ⟨S1700000x1, .i32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S_, .f32⟩
  | 34 => ⟨S100000, .f32⟩
  | 35 => ⟨S100000x1, .f32⟩
  | 36 => ⟨S_, .f32⟩
  | 37 => ⟨S100000x1, .f32⟩
  | 38 => ⟨S100000x1, .f32⟩
  | 39 => ⟨S100000x128, .f32⟩
  | 40 => ⟨S100000x128, .f32⟩
  | 41 => ⟨S100000x128, .f32⟩
  | 42 => ⟨S_, .f32⟩
  | 43 => ⟨S100000, .f32⟩
  | 44 => ⟨S100000x1, .f32⟩
  | 45 => ⟨S_, .f32⟩
  | 46 => ⟨S100000x1, .f32⟩
  | 47 => ⟨S100000x1, .f32⟩
  | 48 => ⟨S100000x128, .f32⟩
  | 49 => ⟨S100000x128, .f32⟩
  | 50 => ⟨S_, .f32⟩
  | 51 => ⟨S100000x1, .f32⟩
  | 52 => ⟨S100000x1, .f32⟩
  | 53 => ⟨S100000x1, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_call2_v0 : Ref sig .tc := ⟨.hbm, 116, rfl⟩
abbrev main_call2_v1 : Ref sig .tc := ⟨.hbm, 117, rfl⟩
abbrev main_v82 : Ref sig .tc := ⟨.hbm, 118, rfl⟩
abbrev main_c_18 : Ref sig .tc := ⟨.hbm, 119, rfl⟩
abbrev main_v83 : Ref sig .tc := ⟨.hbm, 120, rfl⟩
abbrev main_v84 : Ref sig .tc := ⟨.hbm, 121, rfl⟩
abbrev main_c_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_20 : Ref sig .tc := ⟨.hbm, 128, rfl⟩
abbrev main_v90 : Ref sig .tc := ⟨.hbm, 129, rfl⟩
abbrev main_v91 : Ref sig .tc := ⟨.hbm, 130, rfl⟩
abbrev main_c_21 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_22 : Ref sig .tc := ⟨.hbm, 139, rfl⟩
abbrev main_v99 : Ref sig .tc := ⟨.hbm, 140, rfl⟩
abbrev main_v100 : Ref sig .tc := ⟨.hbm, 141, rfl⟩
abbrev main_c_23 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_24 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_call3_cst : Ref sig .tc := ⟨.hbm, 158, rfl⟩
abbrev main_call3_v0 : Ref sig .tc := ⟨.hbm, 159, rfl⟩
abbrev main_v115 : Ref sig .tc := ⟨.hbm, 160, rfl⟩
abbrev main_cst_25 : Ref sig .tc := ⟨.hbm, 161, rfl⟩
abbrev main_v116 : Ref sig .tc := ⟨.hbm, 162, rfl⟩
abbrev main_v117 : Ref sig .tc := ⟨.hbm, 163, rfl⟩
abbrev main_cst_26 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_27 : Ref sig .tc := ⟨.hbm, 170, rfl⟩
abbrev main_v123 : Ref sig .tc := ⟨.hbm, 171, rfl⟩
abbrev main_v124 : Ref sig .tc := ⟨.hbm, 172, rfl⟩
abbrev main_cst_28 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_29 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  What the two programs compute, index by index, over the extended reals.

  A graph-convolution layer here is: multiply the node features by a weight matrix; aggregate rows along the edges
  (the same host operations in both programs, kept opaque); add a bias, clamp below at zero, and normalise every row
  of 128 entries by its mean and variance, then scale and shift per column. This file states the matrix product and
  the row normalisation as functions of whole arrays read at an index; nothing here mentions a program.

  The row normalisation, for a row r with h k = max (a r k + b k) 0:
    mean r = (sum over k of h k) / 128,   var r = (sum over k of (h k − mean r)²) / 128,
    out r j = (h j − mean r) · rsqrt (var r + ε) · g j + be j,
  with 128 and ε the very words both programs carry (they are never evaluated: the same word stands on both sides).
-/
import Idealize.ShloMosaic.PureOps.Ideal
import Idealize.ShloMosaic.Lib.ValueIdx

noncomputable section

namespace Cert.GcnSpec

open Idealize.ShloMosaic Idealize.ShloMosaic.ValueIdx

/-- Node features: 100000 rows of 128. -/
abbrev SN : Shape := ⟨2, ![100000, 128]⟩
/-- A weight matrix. -/
abbrev SW : Shape := ⟨2, ![128, 128]⟩

/-- The row number of an index of a 100000 × 128 array. -/
abbrev rowOf (i : SN.Idx) : Fin 100000 := ⟨(i 0).val, (i 0).isLt⟩
/-- Its column number. -/
abbrev colOf (i : SN.Idx) : Fin 128 := ⟨(i 1).val, (i 1).isLt⟩

theorem eq_ix2_row_col (i : SN.Idx) : i = ix2 (rowOf i) (colOf i) :=
  funext fun a => Fin.ext (by match a with | ⟨0, _⟩ => rfl | ⟨1, _⟩ => rfl)

/-- The matrix product x · w: entry (r, c) is the sum over k of x (r, k) · w (k, c). -/
def mm (x : SN.Idx → EReal) (w : SW.Idx → EReal) : SN.Idx → EReal :=
  fun i => ∑ k : Fin 128, x (ix2 (rowOf i) k) * w (ix2 k (colOf i))

theorem mm_apply (x : SN.Idx → EReal) (w : SW.Idx → EReal) (r : Fin 100000) (c : Fin 128) :
    mm x w (ix2 r c) = ∑ k : Fin 128, x (ix2 r k) * w (ix2 k c) := rfl

/-- The activated entry: the aggregate plus the bias, clamped below at zero. -/
def act (a : SN.Idx → EReal) (b : Fin 128 → EReal) (r : Fin 100000) (k : Fin 128) : EReal :=
  max (a (ix2 r k) + b k) (Ideal.ofBits .f32 0x00000000#32)

/-- A row's mean. -/
def mean (a : SN.Idx → EReal) (b : Fin 128 → EReal) (r : Fin 100000) : EReal :=
  Ideal.div (∑ k : Fin 128, act a b r k) (Ideal.ofBits .f32 0x43000000#32)

/-- A row's variance. -/
def var (a : SN.Idx → EReal) (b : Fin 128 → EReal) (r : Fin 100000) : EReal :=
  Ideal.div (∑ k : Fin 128, (act a b r k - mean a b r) * (act a b r k - mean a b r)) (Ideal.ofBits .f32 0x43000000#32)

/-- Entry (r, j) of the normalised, scaled and shifted row. -/
def lnAt (a : SN.Idx → EReal) (b g be : Fin 128 → EReal) (r : Fin 100000) (j : Fin 128) : EReal :=
  (act a b r j - mean a b r) * Ideal.rsqrt (var a b r + Ideal.ofBits .f32 0x3727C5AC#32) * g j + be j

/-- Bias, clamp, and row normalisation of a whole 100000 × 128 array. -/
def ln (a : SN.Idx → EReal) (b g be : Fin 128 → EReal) : SN.Idx → EReal :=
  fun i => lnAt a b g be (rowOf i) (colOf i)

theorem ln_apply (a : SN.Idx → EReal) (b g be : Fin 128 → EReal) (r : Fin 100000) (j : Fin 128) :
    ln a b g be (ix2 r j) = lnAt a b g be r j := rfl

end Cert.GcnSpec

end
-- ==== Proof.KernelDefs.lean ====
/-
  The values the idealized kernel program's host stretches compute, named.

  The edge array's two rows, each followed by every node's own number (the self-loops), are the edges' sources and
  destinations. A node's degree counts the edges into it; an edge's weight is the product of its endpoints' inverse
  square-root degrees. A layer's aggregation takes, for every edge, the row of its source (a take that wraps negative
  indices and fills rows whose index is out of range), scales it by the edge's weight, and adds it into the row of the
  edge's destination.
-/
import proofs.«431147_j19911468384625_1_alg».proof.Proof.Gen.KernelIdeal

noncomputable section

namespace Cert.KernelIdeal.Fold

open Cert.KernelIdeal Cert.KernelIdeal.Gen
open Idealize.ShloMosaic

/-! ## The host stretches' values, named -/

/-- The sources of all edges: row 0 of the edge array, then every node's own number (the self-loops). -/
def sK (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The destinations of all edges: row 1 of the edge array, then every node's own number. -/
def dK (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- Negative index words wrapped by the node count, as a column of start indices. -/
def wrapK (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

variable {F : FTy → Type} [FloatOps F]

/-- Each node's in-degree (self-loop included), as a float. -/
def degK (e : IVec S2x1600000 32) : FVec F S100000 .f32 :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 (dK e))
    (broadcastInDim S1700000 ![] bcast_S_S1700000 (constant (F := F) S_ .f32 0x3F800000#32))

/-- The inverse square root of the degree where it is positive, zero elsewhere. -/
def dinvK (e : IVec S2x1600000 32) : FVec F S100000 .f32 :=
  select (cmpf .ogt (degK (F := F) e) (broadcastInDim S100000 ![] bcast_S_S100000 (constant (F := F) S_ .f32 0x00000000#32)))
    (Host.rsqrt (degK (F := F) e))
    (broadcastInDim S100000 ![] bcast_S_S100000 (id (constant (F := F) S_ .f32 0x00000000#32)))

/-- The per-edge weight: the product of the two endpoints' inverse square-root degrees. -/
def normK (e : IVec S2x1600000 32) : FVec F S1700000 .f32 :=
  mulf (Host.gather gather_S100000_S1700000x1_S1700000_n_0_n_n_0_1_1 (dinvK (F := F) e) (wrapK (sK e)))
    (Host.gather gather_S100000_S1700000x1_S1700000_n_0_n_n_0_1_1 (dinvK (F := F) e) (wrapK (dK e)))

/-- The guarded take of rows: the row of `h` at each (wrapped) source where that lies in range, a fill value elsewhere. -/
def takeK (h : FVec F S100000x128 .f32) (s : IVec S1700000 32) : FVec F S1700000x128 .f32 :=
  select
    (broadcastInDim S1700000x128 ![0] bcast_S1700000_S1700000x128_0
      (Host.reduce IntOp.andi
        (andi (cmpi .sge (wrapK s) (broadcastInDim S1700000x1 ![] bcast_S_S1700000x1 (constantI S_ 32 0#32)))
          (cmpi .sle (wrapK s) (broadcastInDim S1700000x1 ![0, 1] bcast_S1x1_S1700000x1_0_1 (broadcastInDim S1x1 ![1] bcast_S1_S1x1_1 (constantI S1 32 99999#32)))))
        (constantI S_ 1 1#1) reducesTo_S1700000x1_S1700000_d1 h_S_))
    (Host.gather gather_S100000x128_S1700000x1_S1700000x128_1_0_n_n_0_1_1128 h (wrapK s))
    (broadcastInDim S1700000x128 ![] bcast_S_S1700000x128 (constant (F := F) S_ .f32 0x7FC00000#32))

/-- The aggregation: taken rows scaled by the edge weights, summed into each edge's destination row. -/
def aggK (h : FVec F S100000x128 .f32) (s d : IVec S1700000 32) (nu : FVec F S1700000 .f32) : FVec F S100000x128 .f32 :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 d)
    (mulf (takeK h s)
      (broadcastInDim S1700000x128 ![0, 1] bcast_S1700000x1_S1700000x128_0_1 (broadcastInDim S1700000x1 ![0] bcast_S1700000_S1700000x1_0 nu)))

end Cert.KernelIdeal.Fold

end
-- ==== Proof.KernelFold.lean ====
/-
  The idealized kernel program's result array as one function of its arguments.

  @main is four kernel regions among stretches of host operations. The buffer contents at each segment boundary are a
  fold from the launch memory; this file walks that fold: each stretch's results as terms of what the stretch found
  (stated for ANY contents the stretch may find), each region's output array as the specification's function of its
  input arrays (taken as hypotheses here: the regions' own modules prove them), every other buffer carried unchanged.

  In words: with s, d the edges' sources and destinations read off the edge array (each followed by every node's own
  number) and nu the per-edge weights,
    result = LN (AGG (LN (AGG (x · W1)) b1 g1 be1 · W2)) b2 g2 be2,
  where AGG takes rows by source (filling rows whose index is out of range), scales them by nu and sums them by
  destination, and LN adds the bias, clamps at zero and normalises every row.
-/
import proofs.«431147_j19911468384625_1_alg».proof.Proof.Gen.KernelIdeal.Frame
import proofs.«431147_j19911468384625_1_alg».proof.Proof.Spec
import proofs.«431147_j19911468384625_1_alg».proof.Proof.KernelDefs
import Idealize.ShloMosaic.Lib.StableHlo.Run
import Idealize.ShloMosaic.Lib.Pipeline.Value
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-! ### Typed references: contents carried to a buffer's type and back -/

/-- Contents carried to a typed reference's buffer type and back are unchanged. -/
theorem ofBuf_toBuf {Val : EltTy → Type} {T : BufTy} (x : TRef sig T) (v : T.Contents Val) : x.ofBuf (x.toBuf v) = v := by
  obtain ⟨r, h, d, u⟩ := x
  subst h
  rfl

/-- The validity mask of a column of (wrapped) index words: one where the word is at least 0 and at most 99999. -/
def maskK (w : IVec S1700000x1 32) : IVec S1700000 1 :=
  Host.reduce IntOp.andi
    (andi (cmpi .sge w (broadcastInDim S1700000x1 ![] bcast_S_S1700000x1 (constantI S_ 32 0#32)))
      (cmpi .sle w (broadcastInDim S1700000x1 ![0, 1] bcast_S1x1_S1700000x1_0_1 (broadcastInDim S1x1 ![1] bcast_S1_S1x1_1 (constantI S1 32 99999#32)))))
    (constantI S_ 1 1#1) reducesTo_S1700000x1_S1700000_d1 h_S_

/-- The guarded take: the gathered rows where the mask is one, the fill value elsewhere. -/
theorem takeK_unfold (h : FVec F S100000x128 .f32) (s : IVec S1700000 32) :
    takeK h s = select (broadcastInDim S1700000x128 ![0] bcast_S1700000_S1700000x128_0 (maskK (wrapK s)))
      (Host.gather gather_S100000x128_S1700000x1_S1700000x128_1_0_n_n_0_1_1128 h (wrapK s))
      (broadcastInDim S1700000x128 ![] bcast_S_S1700000x128 (constant (F := F) S_ .f32 0x7FC00000#32)) := rfl

/-! ## The host stretches, from any contents `X` they may find -/

section Stretches

variable (X : Valuation τ sig (Elt F))

/-! ### Before region 0: the edge list and the weights; no argument is written -/

theorem first_v5 : StableHlo.after hostOps0_2 (StableHlo.after hostOps0_1 (StableHlo.after hostOps0 X)) (Proc.devRef .tc main_v5) = sK (X (Proc.devRef .tc main_arg1)) := by
  after_results
  all_goals rfl

theorem first_v6 : StableHlo.after hostOps0_2 (StableHlo.after hostOps0_1 (StableHlo.after hostOps0 X)) (Proc.devRef .tc main_v6) = dK (X (Proc.devRef .tc main_arg1)) := by
  after_results
  all_goals rfl

set_option maxHeartbeats 4000000 in
theorem first_v29 : StableHlo.after hostOps0_2 (StableHlo.after hostOps0_1 (StableHlo.after hostOps0 X)) (Proc.devRef .tc main_v29) = normK (F := F) (X (Proc.devRef .tc main_arg1)) := by
  after_results_simp
  all_goals rfl

theorem first_arg0 : StableHlo.after hostOps0_2 (StableHlo.after hostOps0_1 (StableHlo.after hostOps0 X)) (Proc.devRef .tc main_arg0) = X (Proc.devRef .tc main_arg0) := by
  after_results
  all_goals rfl

theorem first_arg2 : StableHlo.after hostOps0_2 (StableHlo.after hostOps0_1 (StableHlo.after hostOps0 X)) (Proc.devRef .tc main_arg2) = X (Proc.devRef .tc main_arg2) := by
  after_results
  all_goals rfl

theorem first_arg3 : StableHlo.after hostOps0_2 (StableHlo.after hostOps0_1 (StableHlo.after hostOps0 X)) (Proc.devRef .tc main_arg3) = X (Proc.devRef .tc main_arg3) := by
  after_results
  all_goals rfl

theorem first_arg4 : StableHlo.after hostOps0_2 (StableHlo.after hostOps0_1 (StableHlo.after hostOps0 X)) (Proc.devRef .tc main_arg4) = X (Proc.devRef .tc main_arg4) := by
  after_results
  all_goals rfl

theorem first_arg5 : StableHlo.after hostOps0_2 (StableHlo.after hostOps0_1 (StableHlo.after hostOps0 X)) (Proc.devRef .tc main_arg5) = X (Proc.devRef .tc main_arg5) := by
  after_results
  all_goals rfl

theorem first_arg6 : StableHlo.after hostOps0_2 (StableHlo.after hostOps0_1 (StableHlo.after hostOps0 X)) (Proc.devRef .tc main_arg6) = X (Proc.devRef .tc main_arg6) := by
  after_results
  all_goals rfl

theorem first_arg7 : StableHlo.after hostOps0_2 (StableHlo.after hostOps0_1 (StableHlo.after hostOps0 X)) (Proc.devRef .tc main_arg7) = X (Proc.devRef .tc main_arg7) := by
  after_results
  all_goals rfl

theorem first_arg8 : StableHlo.after hostOps0_2 (StableHlo.after hostOps0_1 (StableHlo.after hostOps0 X)) (Proc.devRef .tc main_arg8) = X (Proc.devRef .tc main_arg8) := by
  after_results
  all_goals rfl

theorem first_arg9 : StableHlo.after hostOps0_2 (StableHlo.after hostOps0_1 (StableHlo.after hostOps0 X)) (Proc.devRef .tc main_arg9) = X (Proc.devRef .tc main_arg9) := by
  after_results
  all_goals rfl

/-! ### Between regions 0 and 1: the first aggregation, and the bias, scale and shift as one-row matrices -/

/-! ### The guarded take in `hostOps1`, in three steps: the wrapped index column, its validity mask, the selection -/

theorem mid_idx : StableHlo.after ((hostOps1 (F := F)).take 8) X (Proc.devRef .tc main_call1_v5) = wrapK (X (Proc.devRef .tc main_v5)) := by
  simp only [hostOps1, List.take]
  after_results
  all_goals rfl

theorem mid_rows : StableHlo.after ((hostOps1 (F := F)).take 8) X (Proc.devRef .tc main_v30) = X (Proc.devRef .tc main_v30) := by
  simp only [hostOps1, List.take]
  after_results
  all_goals rfl

theorem mid_mask : StableHlo.after (((hostOps1 (F := F)).drop 8).take 10) X (Proc.devRef .tc main_call1_v12) = maskK (X (Proc.devRef .tc main_call1_v5)) := by
  simp only [hostOps1, List.take, List.drop]
  after_results
  simp only [ofBuf_toBuf]
  have e5 : ∀ (h) (d) (u), (TRef.of main_call1_v5 h d u : TRef sig ⟨S1700000x1, .i32⟩).ofBuf (X (Proc.devRef .tc main_call1_v5)) = X (Proc.devRef .tc main_call1_v5) :=
    fun _ _ _ => rfl
  simp only [e5]
  unfold maskK
  exact cast_eq _ _

theorem mid_mask_idx : StableHlo.after (((hostOps1 (F := F)).drop 8).take 10) X (Proc.devRef .tc main_call1_v5) = X (Proc.devRef .tc main_call1_v5) := by
  simp only [hostOps1, List.take, List.drop]
  after_results
  all_goals rfl

theorem mid_mask_rows : StableHlo.after (((hostOps1 (F := F)).drop 8).take 10) X (Proc.devRef .tc main_v30) = X (Proc.devRef .tc main_v30) := by
  simp only [hostOps1, List.take, List.drop]
  after_results
  all_goals rfl

theorem mid_sel : StableHlo.after (((hostOps1 (F := F)).drop 8).drop 10) X (Proc.devRef .tc main_v31)
    = select (broadcastInDim S1700000x128 ![0] bcast_S1700000_S1700000x128_0 (X (Proc.devRef .tc main_call1_v12)))
      (Host.gather gather_S100000x128_S1700000x1_S1700000x128_1_0_n_n_0_1_1128 (X (Proc.devRef .tc main_v30)) (X (Proc.devRef .tc main_call1_v5)))
      (broadcastInDim S1700000x128 ![] bcast_S_S1700000x128 (constant (F := F) S_ .f32 0x7FC00000#32)) := by
  simp only [hostOps1, List.drop]
  after_results
  all_goals rfl

theorem mid_take : StableHlo.after hostOps1 X (Proc.devRef .tc main_v31) = takeK (X (Proc.devRef .tc main_v30)) (X (Proc.devRef .tc main_v5)) := by
  have hl : (hostOps1 (F := F)) = (hostOps1 (F := F)).take 8 ++ (((hostOps1 (F := F)).drop 8).take 10 ++ ((hostOps1 (F := F)).drop 8).drop 10) := by
    rw [List.take_append_drop, List.take_append_drop]
  rw [hl, StableHlo.after_append, StableHlo.after_append]
  generalize h1 : StableHlo.after ((hostOps1 (F := F)).take 8) X = Y1
  generalize h2 : StableHlo.after (((hostOps1 (F := F)).drop 8).take 10) Y1 = Y2
  have i1 : Y1 (Proc.devRef .tc main_call1_v5) = wrapK (X (Proc.devRef .tc main_v5)) := by rw [← h1]; exact mid_idx X
  have r1 : Y1 (Proc.devRef .tc main_v30) = X (Proc.devRef .tc main_v30) := by rw [← h1]; exact mid_rows X
  have k2 : Y2 (Proc.devRef .tc main_call1_v12) = maskK (Y1 (Proc.devRef .tc main_call1_v5)) := by rw [← h2]; exact mid_mask Y1
  have i2 : Y2 (Proc.devRef .tc main_call1_v5) = Y1 (Proc.devRef .tc main_call1_v5) := by rw [← h2]; exact mid_mask_idx Y1
  have r2 : Y2 (Proc.devRef .tc main_v30) = Y1 (Proc.devRef .tc main_v30) := by rw [← h2]; exact mid_mask_rows Y1
  rw [mid_sel Y2, k2, i2, r2, i1, r1, takeK_unfold]

theorem mid1_v6 : StableHlo.after hostOps1 X (Proc.devRef .tc main_v6) = X (Proc.devRef .tc main_v6) := by
  after_results
  all_goals rfl

theorem mid1_v29 : StableHlo.after hostOps1 X (Proc.devRef .tc main_v29) = X (Proc.devRef .tc main_v29) := by
  after_results
  all_goals rfl

theorem mid_v37 : StableHlo.after hostOps1_1 (StableHlo.after hostOps1 X) (Proc.devRef .tc main_v37) = aggK (X (Proc.devRef .tc main_v30)) (X (Proc.devRef .tc main_v5)) (X (Proc.devRef .tc main_v6)) (X (Proc.devRef .tc main_v29)) := by
  show StableHlo.after hostOps1_1 (StableHlo.after hostOps1 X) (Proc.devRef .tc main_v37) = _
  generalize hY : StableHlo.after hostOps1 X = Y
  have e31 : Y (Proc.devRef .tc main_v31) = takeK (X (Proc.devRef .tc main_v30)) (X (Proc.devRef .tc main_v5)) := by rw [← hY]; exact mid_take X
  have e6 : Y (Proc.devRef .tc main_v6) = X (Proc.devRef .tc main_v6) := by rw [← hY]; exact mid1_v6 X
  have e29 : Y (Proc.devRef .tc main_v29) = X (Proc.devRef .tc main_v29) := by rw [← hY]; exact mid1_v29 X
  after_results
  rw [e31, e6, e29]
  rfl

theorem mid_v38 : StableHlo.after hostOps1_1 (StableHlo.after hostOps1 X) (Proc.devRef .tc main_v38) = shapeCast S1x128 (X (Proc.devRef .tc main_arg3)) shapeCasts_S128_S1x128 := by
  after_results
  all_goals rfl

theorem mid_v39 : StableHlo.after hostOps1_1 (StableHlo.after hostOps1 X) (Proc.devRef .tc main_v39) = shapeCast S1x128 (X (Proc.devRef .tc main_arg6)) shapeCasts_S128_S1x128 := by
  after_results
  all_goals rfl

theorem mid_v40 : StableHlo.after hostOps1_1 (StableHlo.after hostOps1 X) (Proc.devRef .tc main_v40) = shapeCast S1x128 (X (Proc.devRef .tc main_arg7)) shapeCasts_S128_S1x128 := by
  after_results
  all_goals rfl

theorem mid_v5 : StableHlo.after hostOps1_1 (StableHlo.after hostOps1 X) (Proc.devRef .tc main_v5) = X (Proc.devRef .tc main_v5) := by
  after_results
  all_goals rfl

theorem mid_v6 : StableHlo.after hostOps1_1 (StableHlo.after hostOps1 X) (Proc.devRef .tc main_v6) = X (Proc.devRef .tc main_v6) := by
  after_results
  all_goals rfl

theorem mid_v29 : StableHlo.after hostOps1_1 (StableHlo.after hostOps1 X) (Proc.devRef .tc main_v29) = X (Proc.devRef .tc main_v29) := by
  after_results
  all_goals rfl

theorem mid_arg4 : StableHlo.after hostOps1_1 (StableHlo.after hostOps1 X) (Proc.devRef .tc main_arg4) = X (Proc.devRef .tc main_arg4) := by
  after_results
  all_goals rfl

theorem mid_arg5 : StableHlo.after hostOps1_1 (StableHlo.after hostOps1 X) (Proc.devRef .tc main_arg5) = X (Proc.devRef .tc main_arg5) := by
  after_results
  all_goals rfl

theorem mid_arg8 : StableHlo.after hostOps1_1 (StableHlo.after hostOps1 X) (Proc.devRef .tc main_arg8) = X (Proc.devRef .tc main_arg8) := by
  after_results
  all_goals rfl

theorem mid_arg9 : StableHlo.after hostOps1_1 (StableHlo.after hostOps1 X) (Proc.devRef .tc main_arg9) = X (Proc.devRef .tc main_arg9) := by
  after_results
  all_goals rfl

/-! ### After region 2: the second aggregation, and the second layer's bias, scale and shift -/

/-! ### The guarded take in `hostOps3`, in three steps: the wrapped index column, its validity mask, the selection -/

theorem last_idx : StableHlo.after ((hostOps3 (F := F)).take 8) X (Proc.devRef .tc main_call2_v5) = wrapK (X (Proc.devRef .tc main_v5)) := by
  simp only [hostOps3, List.take]
  after_results
  all_goals rfl

theorem last_rows : StableHlo.after ((hostOps3 (F := F)).take 8) X (Proc.devRef .tc main_v42) = X (Proc.devRef .tc main_v42) := by
  simp only [hostOps3, List.take]
  after_results
  all_goals rfl

theorem last_mask : StableHlo.after (((hostOps3 (F := F)).drop 8).take 10) X (Proc.devRef .tc main_call2_v12) = maskK (X (Proc.devRef .tc main_call2_v5)) := by
  simp only [hostOps3, List.take, List.drop]
  after_results
  simp only [ofBuf_toBuf]
  have e5 : ∀ (h) (d) (u), (TRef.of main_call2_v5 h d u : TRef sig ⟨S1700000x1, .i32⟩).ofBuf (X (Proc.devRef .tc main_call2_v5)) = X (Proc.devRef .tc main_call2_v5) :=
    fun _ _ _ => rfl
  simp only [e5]
  unfold maskK
  exact cast_eq _ _

theorem last_mask_idx : StableHlo.after (((hostOps3 (F := F)).drop 8).take 10) X (Proc.devRef .tc main_call2_v5) = X (Proc.devRef .tc main_call2_v5) := by
  simp only [hostOps3, List.take, List.drop]
  after_results
  all_goals rfl

theorem last_mask_rows : StableHlo.after (((hostOps3 (F := F)).drop 8).take 10) X (Proc.devRef .tc main_v42) = X (Proc.devRef .tc main_v42) := by
  simp only [hostOps3, List.take, List.drop]
  after_results
  all_goals rfl

theorem last_sel : StableHlo.after (((hostOps3 (F := F)).drop 8).drop 10) X (Proc.devRef .tc main_v43)
    = select (broadcastInDim S1700000x128 ![0] bcast_S1700000_S1700000x128_0 (X (Proc.devRef .tc main_call2_v12)))
      (Host.gather gather_S100000x128_S1700000x1_S1700000x128_1_0_n_n_0_1_1128 (X (Proc.devRef .tc main_v42)) (X (Proc.devRef .tc main_call2_v5)))
      (broadcastInDim S1700000x128 ![] bcast_S_S1700000x128 (constant (F := F) S_ .f32 0x7FC00000#32)) := by
  simp only [hostOps3, List.drop]
  after_results
  all_goals rfl

theorem last_take : StableHlo.after hostOps3 X (Proc.devRef .tc main_v43) = takeK (X (Proc.devRef .tc main_v42)) (X (Proc.devRef .tc main_v5)) := by
  have hl : (hostOps3 (F := F)) = (hostOps3 (F := F)).take 8 ++ (((hostOps3 (F := F)).drop 8).take 10 ++ ((hostOps3 (F := F)).drop 8).drop 10) := by
    rw [List.take_append_drop, List.take_append_drop]
  rw [hl, StableHlo.after_append, StableHlo.after_append]
  generalize h1 : StableHlo.after ((hostOps3 (F := F)).take 8) X = Y1
  generalize h2 : StableHlo.after (((hostOps3 (F := F)).drop 8).take 10) Y1 = Y2
  have i1 : Y1 (Proc.devRef .tc main_call2_v5) = wrapK (X (Proc.devRef .tc main_v5)) := by rw [← h1]; exact last_idx X
  have r1 : Y1 (Proc.devRef .tc main_v42) = X (Proc.devRef .tc main_v42) := by rw [← h1]; exact last_rows X
  have k2 : Y2 (Proc.devRef .tc main_call2_v12) = maskK (Y1 (Proc.devRef .tc main_call2_v5)) := by rw [← h2]; exact last_mask Y1
  have i2 : Y2 (Proc.devRef .tc main_call2_v5) = Y1 (Proc.devRef .tc main_call2_v5) := by rw [← h2]; exact last_mask_idx Y1
  have r2 : Y2 (Proc.devRef .tc main_v42) = Y1 (Proc.devRef .tc main_v42) := by rw [← h2]; exact last_mask_rows Y1
  rw [last_sel Y2, k2, i2, r2, i1, r1, takeK_unfold]

theorem last1_v6 : StableHlo.after hostOps3 X (Proc.devRef .tc main_v6) = X (Proc.devRef .tc main_v6) := by
  after_results
  all_goals rfl

theorem last1_v29 : StableHlo.after hostOps3 X (Proc.devRef .tc main_v29) = X (Proc.devRef .tc main_v29) := by
  after_results
  all_goals rfl

theorem last_v49 : StableHlo.after hostOps3_1 (StableHlo.after hostOps3 X) (Proc.devRef .tc main_v49) = aggK (X (Proc.devRef .tc main_v42)) (X (Proc.devRef .tc main_v5)) (X (Proc.devRef .tc main_v6)) (X (Proc.devRef .tc main_v29)) := by
  show StableHlo.after hostOps3_1 (StableHlo.after hostOps3 X) (Proc.devRef .tc main_v49) = _
  generalize hY : StableHlo.after hostOps3 X = Y
  have e43 : Y (Proc.devRef .tc main_v43) = takeK (X (Proc.devRef .tc main_v42)) (X (Proc.devRef .tc main_v5)) := by rw [← hY]; exact last_take X
  have e6 : Y (Proc.devRef .tc main_v6) = X (Proc.devRef .tc main_v6) := by rw [← hY]; exact last1_v6 X
  have e29 : Y (Proc.devRef .tc main_v29) = X (Proc.devRef .tc main_v29) := by rw [← hY]; exact last1_v29 X
  after_results
  rw [e43, e6, e29]
  rfl

theorem last_v50 : StableHlo.after hostOps3_1 (StableHlo.after hostOps3 X) (Proc.devRef .tc main_v50) = shapeCast S1x128 (X (Proc.devRef .tc main_arg5)) shapeCasts_S128_S1x128 := by
  after_results
  all_goals rfl

theorem last_v51 : StableHlo.after hostOps3_1 (StableHlo.after hostOps3 X) (Proc.devRef .tc main_v51) = shapeCast S1x128 (X (Proc.devRef .tc main_arg8)) shapeCasts_S128_S1x128 := by
  after_results
  all_goals rfl

theorem last_v52 : StableHlo.after hostOps3_1 (StableHlo.after hostOps3 X) (Proc.devRef .tc main_v52) = shapeCast S1x128 (X (Proc.devRef .tc main_arg9)) shapeCasts_S128_S1x128 := by
  after_results
  all_goals rfl

end Stretches

/-! ## The fold, at the ideal values -/

/-- A vector of 128 entries laid out as a one-row matrix, read back entry by entry. -/
abbrev rowc (v : FVec Ideal S128 .f32) : Fin 128 → EReal := fun j => shapeCast S1x128 v shapeCasts_S128_S1x128 (ix2 (0 : Fin 1) j)

section Fold

variable (m : (ℓ : Loc nD τ sig) → Buf (Elt Ideal) ℓ) (ρ : Dev nD → PrngReg)
variable (hmm0 : ∀ (V : (c : Dev nD) → (b : Ref sig .tc) → Buf (Elt Ideal) ((c : Thread nD τ).loc b)) (c : Dev nD),
    (dat0 (F := Ideal) V c).arrAt 2 cfg0.N = Cert.GcnSpec.mm (V c main_arg0) (V c main_arg2))
variable (hln1 : ∀ (V : (c : Dev nD) → (b : Ref sig .tc) → Buf (Elt Ideal) ((c : Thread nD τ).loc b)) (c : Dev nD),
    (dat1 (F := Ideal) V c).arrAt 4 cfg1.N = Cert.GcnSpec.ln (V c main_v37) (fun j => V c main_v38 (ix2 (0 : Fin 1) j)) (fun j => V c main_v39 (ix2 (0 : Fin 1) j)) (fun j => V c main_v40 (ix2 (0 : Fin 1) j)))
variable (hmm2 : ∀ (V : (c : Dev nD) → (b : Ref sig .tc) → Buf (Elt Ideal) ((c : Thread nD τ).loc b)) (c : Dev nD),
    (dat2 (F := Ideal) V c).arrAt 2 cfg2.N = Cert.GcnSpec.mm (V c main_v41) (V c main_arg4))
variable (hln3 : ∀ (V : (c : Dev nD) → (b : Ref sig .tc) → Buf (Elt Ideal) ((c : Thread nD τ).loc b)) (c : Dev nD),
    (dat3 (F := Ideal) V c).arrAt 4 cfg3.N = Cert.GcnSpec.ln (V c main_v49) (fun j => V c main_v50 (ix2 (0 : Fin 1) j)) (fun j => V c main_v51 (ix2 (0 : Fin 1) j)) (fun j => V c main_v52 (ix2 (0 : Fin 1) j)))
include hmm0 hln1 hmm2 hln3

set_option maxHeartbeats 2000000 in
/-- The result array at the last boundary, as a function of the launch memory's argument arrays. -/
theorem result (c : Dev nD) :
    W11 m ρ c (Proc.devRef .tc main_v53)
      = Cert.GcnSpec.ln
          (aggK (F := Ideal)
            (Cert.GcnSpec.mm
              (Cert.GcnSpec.ln
                (aggK (F := Ideal) (Cert.GcnSpec.mm (m ((c : Thread nD τ).loc main_arg0)) (m ((c : Thread nD τ).loc main_arg2)))
                  (sK (m ((c : Thread nD τ).loc main_arg1))) (dK (m ((c : Thread nD τ).loc main_arg1))) (normK (F := Ideal) (m ((c : Thread nD τ).loc main_arg1))))
                (rowc (m ((c : Thread nD τ).loc main_arg3))) (rowc (m ((c : Thread nD τ).loc main_arg6))) (rowc (m ((c : Thread nD τ).loc main_arg7))))
              (m ((c : Thread nD τ).loc main_arg4)))
            (sK (m ((c : Thread nD τ).loc main_arg1))) (dK (m ((c : Thread nD τ).loc main_arg1))) (normK (F := Ideal) (m ((c : Thread nD τ).loc main_arg1))))
          (rowc (m ((c : Thread nD τ).loc main_arg5))) (rowc (m ((c : Thread nD τ).loc main_arg8))) (rowc (m ((c : Thread nD τ).loc main_arg9))) := by
  -- region 0's entry: the edge list, the weights, the arguments as launched
  have a0 : W3 m ρ c (Proc.devRef .tc main_arg0) = m ((c : Thread nD τ).loc main_arg0) := first_arg0 (W0 m ρ c)
  have a2 : W3 m ρ c (Proc.devRef .tc main_arg2) = m ((c : Thread nD τ).loc main_arg2) := first_arg2 (W0 m ρ c)
  have a3 : W3 m ρ c (Proc.devRef .tc main_arg3) = m ((c : Thread nD τ).loc main_arg3) := first_arg3 (W0 m ρ c)
  have a4 : W3 m ρ c (Proc.devRef .tc main_arg4) = m ((c : Thread nD τ).loc main_arg4) := first_arg4 (W0 m ρ c)
  have a5 : W3 m ρ c (Proc.devRef .tc main_arg5) = m ((c : Thread nD τ).loc main_arg5) := first_arg5 (W0 m ρ c)
  have a6 : W3 m ρ c (Proc.devRef .tc main_arg6) = m ((c : Thread nD τ).loc main_arg6) := first_arg6 (W0 m ρ c)
  have a7 : W3 m ρ c (Proc.devRef .tc main_arg7) = m ((c : Thread nD τ).loc main_arg7) := first_arg7 (W0 m ρ c)
  have a8 : W3 m ρ c (Proc.devRef .tc main_arg8) = m ((c : Thread nD τ).loc main_arg8) := first_arg8 (W0 m ρ c)
  have a9 : W3 m ρ c (Proc.devRef .tc main_arg9) = m ((c : Thread nD τ).loc main_arg9) := first_arg9 (W0 m ρ c)
  have s3 : W3 m ρ c (Proc.devRef .tc main_v5) = sK (m ((c : Thread nD τ).loc main_arg1)) := first_v5 (W0 m ρ c)
  have d3 : W3 m ρ c (Proc.devRef .tc main_v6) = dK (m ((c : Thread nD τ).loc main_arg1)) := first_v6 (W0 m ρ c)
  have n3 : W3 m ρ c (Proc.devRef .tc main_v29) = normK (F := Ideal) (m ((c : Thread nD τ).loc main_arg1)) := first_v29 (W0 m ρ c)
  -- region 0's exit: the first matrix product; everything else carried
  have p0 : W4 m ρ c (Proc.devRef .tc main_v30) = Cert.GcnSpec.mm (m ((c : Thread nD τ).loc main_arg0)) (m ((c : Thread nD τ).loc main_arg2)) := by
    refine (W4_arr m ρ c 2).trans ((hmm0 (V3 m ρ) c).trans ?_)
    rw [show V3 m ρ c main_arg0 = _ from a0, show V3 m ρ c main_arg2 = _ from a2]
  have s4 := (W4_of_ne m ρ c main_v5 (by decide)).trans s3
  have d4 := (W4_of_ne m ρ c main_v6 (by decide)).trans d3
  have n4 := (W4_of_ne m ρ c main_v29 (by decide)).trans n3
  have b3 := (W4_of_ne m ρ c main_arg3 (by decide)).trans a3
  have b4 := (W4_of_ne m ρ c main_arg4 (by decide)).trans a4
  have b5 := (W4_of_ne m ρ c main_arg5 (by decide)).trans a5
  have b6 := (W4_of_ne m ρ c main_arg6 (by decide)).trans a6
  have b7 := (W4_of_ne m ρ c main_arg7 (by decide)).trans a7
  have b8 := (W4_of_ne m ρ c main_arg8 (by decide)).trans a8
  have b9 := (W4_of_ne m ρ c main_arg9 (by decide)).trans a9
  -- region 1's entry: the first aggregation; bias, scale, shift as one-row matrices
  have g1 : W6 m ρ c (Proc.devRef .tc main_v37) = _ := (mid_v37 (W4 m ρ c)).trans (by rw [p0, s4, d4, n4])
  have r3 : W6 m ρ c (Proc.devRef .tc main_v38) = _ := (mid_v38 (W4 m ρ c)).trans (by rw [b3])
  have r6 : W6 m ρ c (Proc.devRef .tc main_v39) = _ := (mid_v39 (W4 m ρ c)).trans (by rw [b6])
  have r7 : W6 m ρ c (Proc.devRef .tc main_v40) = _ := (mid_v40 (W4 m ρ c)).trans (by rw [b7])
  have s6 : W6 m ρ c (Proc.devRef .tc main_v5) = _ := (mid_v5 (W4 m ρ c)).trans s4
  have d6 : W6 m ρ c (Proc.devRef .tc main_v6) = _ := (mid_v6 (W4 m ρ c)).trans d4
  have n6 : W6 m ρ c (Proc.devRef .tc main_v29) = _ := (mid_v29 (W4 m ρ c)).trans n4
  have c4 : W6 m ρ c (Proc.devRef .tc main_arg4) = _ := (mid_arg4 (W4 m ρ c)).trans b4
  have c5 : W6 m ρ c (Proc.devRef .tc main_arg5) = _ := (mid_arg5 (W4 m ρ c)).trans b5
  have c8 : W6 m ρ c (Proc.devRef .tc main_arg8) = _ := (mid_arg8 (W4 m ρ c)).trans b8
  have c9 : W6 m ρ c (Proc.devRef .tc main_arg9) = _ := (mid_arg9 (W4 m ρ c)).trans b9
  -- region 1's exit: the first normalised layer
  have l1 : W7 m ρ c (Proc.devRef .tc main_v41) = _ :=
    (W7_arr m ρ c 4).trans ((hln1 (V6 m ρ) c).trans (by
      rw [show V6 m ρ c main_v37 = _ from g1, show V6 m ρ c main_v38 = _ from r3, show V6 m ρ c main_v39 = _ from r6,
        show V6 m ρ c main_v40 = _ from r7]))
  have s7 := (W7_of_ne m ρ c main_v5 (by decide)).trans s6
  have d7 := (W7_of_ne m ρ c main_v6 (by decide)).trans d6
  have n7 := (W7_of_ne m ρ c main_v29 (by decide)).trans n6
  have e4 := (W7_of_ne m ρ c main_arg4 (by decide)).trans c4
  have e5 := (W7_of_ne m ρ c main_arg5 (by decide)).trans c5
  have e8 := (W7_of_ne m ρ c main_arg8 (by decide)).trans c8
  have e9 := (W7_of_ne m ρ c main_arg9 (by decide)).trans c9
  -- region 2's exit: the second matrix product
  have p2 : W8 m ρ c (Proc.devRef .tc main_v42) = _ :=
    (W8_arr m ρ c 2).trans ((hmm2 (V7 m ρ) c).trans (by
      rw [show V7 m ρ c main_v41 = _ from l1, show V7 m ρ c main_arg4 = _ from e4]))
  have s8 := (W8_of_ne m ρ c main_v5 (by decide)).trans s7
  have d8 := (W8_of_ne m ρ c main_v6 (by decide)).trans d7
  have n8 := (W8_of_ne m ρ c main_v29 (by decide)).trans n7
  have f5 := (W8_of_ne m ρ c main_arg5 (by decide)).trans e5
  have f8 := (W8_of_ne m ρ c main_arg8 (by decide)).trans e8
  have f9 := (W8_of_ne m ρ c main_arg9 (by decide)).trans e9
  -- region 3's entry: the second aggregation
  have g2 : W10 m ρ c (Proc.devRef .tc main_v49) = _ := (last_v49 (W8 m ρ c)).trans (by rw [p2, s8, d8, n8])
  have t5 : W10 m ρ c (Proc.devRef .tc main_v50) = _ := (last_v50 (W8 m ρ c)).trans (by rw [f5])
  have t8 : W10 m ρ c (Proc.devRef .tc main_v51) = _ := (last_v51 (W8 m ρ c)).trans (by rw [f8])
  have t9 : W10 m ρ c (Proc.devRef .tc main_v52) = _ := (last_v52 (W8 m ρ c)).trans (by rw [f9])
  -- region 3's exit: the result
  refine (W11_arr m ρ c 4).trans ((hln3 (V10 m ρ) c).trans ?_)
  rw [show V10 m ρ c main_v49 = _ from g2, show V10 m ρ c main_v50 = _ from t5, show V10 m ρ c main_v51 = _ from t8,
    show V10 m ρ c main_v52 = _ from t9]

end Fold

end Cert.KernelIdeal.Fold

end
-- ==== Proof.LibTakeMask.lean ====
/-
  A row gather guarded by a validity mask ("take, filling what is out of range").

  Such a take wraps negative indices (a word that is negative as a signed number has the axis's extent added), tests
  the wrapped word against the bounds 0 and extent − 1, gathers, and keeps the gathered row only where the test passed,
  putting a fill value elsewhere. When every index word is a row number already, the wrap is the identity, every test
  passes, and the take is the plain gather. The lemmas here are the pieces of that argument: words in range compare
  as expected, an "and"-reduction of all-ones is one, and a selection under an all-ones mask is its first branch.
-/
import Idealize.ShloMosaic.Lib.ReduceAll
import Idealize.ShloMosaic.Lib.StableHlo.Predicate
import Idealize.ShloMosaic.Lib.Pipeline.Value
import Idealize.ShloMosaic.Lib.ValueIdx

noncomputable section

namespace Cert.TakeMask

open Idealize.ShloMosaic Idealize.ShloMosaic.ValueIdx

/-- A left fold by "and" from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_of_all f l _ (IntOp.andi_eq_one.2 ⟨h, hl a List.mem_cons_self⟩) fun n hn => hl n (List.mem_cons_of_mem _ hn)

/-- An "and"-reduction whose operand is all ones, started from one, is one at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_of_all x _ _ hinit fun n _ => hx n

/-- A selection under a mask that is one everywhere is its first branch. -/
theorem select_of_all {s : Shape} {α : Type} (c : IVec s 1) (a b : s.Idx → α) (hc : ∀ i, c i = 1#1) : select c a b = a := by
  funext i
  show Scalar.select (c i) (a i) (b i) = a i
  rw [hc i]; rfl

/-- A word that is, signed, at least 0 and below a bound `N` is the number it spells, below `N`. -/
theorem toNat_lt_of_cmp (N : ℕ) (hN : N < 2 ^ 31) (w : BitVec 32) (h0 : IntOp.cmpi .sge w 0#32 = 1#1)
    (h1 : IntOp.cmpi .slt w (BitVec.ofNat 32 N) = 1#1) : w.toNat < N := by
  have e0 : BitVec.ofBool ((0#32).sle w) = 1#1 := h0
  have e0' : (0#32).sle w = true := (StableHlo.Predicate.ofBool_eq_one_iff _).1 e0
  have hw : w.toNat < 2 ^ 31 := by
    have e : (0#32).toInt ≤ w.toInt := by simpa [BitVec.sle] using e0'
    have z : (0#32).toInt = 0 := rfl
    rw [z, BitVec.toInt_eq_msb_cond] at e
    cases hm : w.msb with
    | false => have := BitVec.msb_eq_false_iff_two_mul_lt.mp hm; omega
    | true => rw [hm] at e; simp at e; have := w.isLt; omega
  have hN' : N % 2 ^ 32 = N := Nat.mod_eq_of_lt (by omega)
  have hb : (BitVec.ofNat 32 N).toNat < 2 ^ 31 := by rw [BitVec.toNat_ofNat, hN']; exact hN
  have := (StableHlo.Predicate.slt_iff_toNat hw hb).1 h1
  rw [BitVec.toNat_ofNat, hN'] at this
  exact this

/-- A word below `N` passes the take's two tests: signed, it is at least 0 and at most `N − 1`. -/
theorem cmp_of_toNat_lt (N : ℕ) (hN : N < 2 ^ 31) (w : BitVec 32) (h : w.toNat < N) :
    IntOp.cmpi .sge w 0#32 = 1#1 ∧ IntOp.cmpi .sle w (BitVec.ofNat 32 (N - 1)) = 1#1 := by
  have hw : w.toNat < 2 ^ 31 := by omega
  have hN' : (N - 1) % 2 ^ 32 = N - 1 := Nat.mod_eq_of_lt (by omega)
  have hb : (BitVec.ofNat 32 (N - 1)).toNat < 2 ^ 31 := by rw [BitVec.toNat_ofNat, hN']; omega
  refine ⟨(StableHlo.Predicate.sge_iff_toNat hw (by decide)).2 (Nat.zero_le _), (StableHlo.Predicate.sle_iff_toNat hw hb).2 ?_⟩
  rw [BitVec.toNat_ofNat, hN']; omega

/-- On a word that is not negative the wrap of negative indices does nothing, whatever would have been added. -/
theorem wrap_of_nonneg (w K : BitVec 32) (h : w.toNat < 2 ^ 31) :
    Scalar.select (IntOp.cmpi .slt w 0#32) (IntOp.addi w K) w = w := by
  have hlt : ¬ IntOp.cmpi .slt w 0#32 = 1#1 := fun hc => by
    have := (StableHlo.Predicate.slt_iff_toNat h (by decide)).1 hc
    simp at this
  exact if_neg hlt

/-- Entry `p` of the vector of the first `n` numbers is the word of `p`. -/
theorem iota_toNat {n : ℕ} (hn : n ≤ 2 ^ 32) (p : Fin n) : (iotaInDim (⟨1, ![n]⟩ : Shape) 32 0 (ix1 p)).toNat = p.val := by
  show (BitVec.ofNat 32 p.val).toNat = p.val
  rw [BitVec.toNat_ofNat]; exact Nat.mod_eq_of_lt (by have := p.isLt; omega)

/-- A vector of index words followed by the numbers 0, 1, …, n₂ − 1 (a list of edges' endpoints followed by every
    node's own number): if every word of the first part spells a number below `N` and `n₂ ≤ N`, so does every entry. -/
theorem concat_iota_toNat_lt {n₁ n₂ n : ℕ} (x : IVec ⟨1, ![n₁]⟩ 32) (N : ℕ) (hN : n₂ ≤ N) (hn₂ : n₂ ≤ 2 ^ 32)
    (hx : ∀ i, (x i).toNat < N) (h : Shape.Concatenates [(⟨1, ![n₁]⟩ : Shape), ⟨1, ![n₂]⟩] ⟨1, ![n]⟩ 0)
    (j : (⟨1, ![n]⟩ : Shape).Idx) :
    (concatenate ⟨1, ![n]⟩ 0 [⟨⟨1, ![n₁]⟩, x⟩, ⟨⟨1, ![n₂]⟩, iotaInDim (⟨1, ![n₂]⟩ : Shape) 32 0⟩] h j).toNat < N := by
  have hsum : n₁ + n₂ = n := by
    have e := h.2.2
    simpa using e
  by_cases hj : (j 0).val < n₁
  · rw [concatenate_pair_apply_left (0 : Fin 1) x (iotaInDim (⟨1, ![n₂]⟩ : Shape) 32 0) h j rfl (ix1 (⟨(j 0).val, hj⟩ : Fin n₁)) (fun b => by
      have hb : b = 0 := Subsingleton.elim _ _
      subst hb; rfl)]
    exact hx _
  · have hq : (j 0).val - n₁ < n₂ := by have := (j 0).isLt; simp at this; omega
    rw [concatenate_pair_apply_right (0 : Fin 1) x (iotaInDim (⟨1, ![n₂]⟩ : Shape) 32 0) h j rfl rfl (ix1 (⟨(j 0).val - n₁, hq⟩ : Fin n₂))
      (fun b hb => absurd (Subsingleton.elim _ _) hb) (by
        show (j 0).val - n₁ + n₁ = (j 0).val
        omega)]
    rw [iota_toNat hn₂]
    show (j 0).val - n₁ < N
    omega

end Cert.TakeMask

end
-- ==== Proof.LibIndexWords.lean ====
/-
  The index words of a gather (or scatter) of one entry per row.

  Such an operation takes an array of index pairs [row, column]: the concatenation, along a new second axis, of the
  rows' own numbers (an iota) and the labels, each first passed through the wrap of negative indices (a word that is
  negative as a signed number has the axis's extent added to it). On words that are not negative the wrap is the
  identity, so row `p` of the index array holds the word of `p` and the label's word. The lemmas below read each
  piece of that construction at an index; all are stated over arbitrary operands and literal shapes.
-/
import Idealize.ShloMosaic.Lib.IdealHost
import Idealize.ShloMosaic.Lib.ValueIdx
import Idealize.ShloMosaic.Lib.Pipeline.Value

namespace Cert.LibIndexWords

open Idealize.ShloMosaic Idealize.ShloMosaic.ValueIdx

variable {α : Type}

/-- A select on the signed comparison `L < z`, at an index where `z` holds zero and `L` holds a word below 2³¹ (not
    negative as a signed number), takes `L`'s word. -/
theorem select_slt_zero_apply {s : Shape} (L z y : IVec s 32) (i : s.Idx) (hz : z i = 0#32)
    (h : (L i).toNat < 2 ^ 31) : select (cmpi .slt L z) y L i = L i := by
  show Scalar.select (IntOp.cmpi .slt (L i) (z i)) (y i) (L i) = L i
  rw [hz]
  have e : IntOp.cmpi .slt (L i) 0#32 = 0#1 := by
    unfold IntOp.cmpi
    have : (L i).slt 0#32 = false := by
      rw [BitVec.slt_zero_eq_msb, BitVec.msb_eq_false_iff_two_mul_lt]; omega
    rw [this]; rfl
  rw [e, select_zero]

/-- The wrap of negative indices, `select (L < 0) (L + K) L` with both constants broadcast from scalars, leaves a
    word below 2³¹ as it is. -/
theorem wrapIndex_apply {s : Shape} (h0 : (⟨0, ![]⟩ : Shape).BroadcastsInDim s ![]) (K : BitVec 32) (L : IVec s 32)
    (i : s.Idx) (h : (L i).toNat < 2 ^ 31) :
    select (cmpi .slt L (broadcastInDim s ![] h0 (constantI ⟨0, ![]⟩ 32 0#32)))
      (addi L (broadcastInDim s ![] h0 (constantI ⟨0, ![]⟩ 32 K))) L i = L i :=
  select_slt_zero_apply L _ _ i (by rw [broadcastInDim_scalar_apply]; rfl) h

/-- The iota along the one axis of a vector of at most 2³² entries holds at `p` the word whose value is `p`. -/
theorem iotaInDim_vec_toNat {n : Nat} (hn : n ≤ 2 ^ 32) (p : Fin n) :
    (iotaInDim (⟨1, ![n]⟩ : Shape) 32 0 (ix1 p)).toNat = p.val := by
  rw [iotaInDim_apply]
  show (BitVec.ofNat 32 p.val).toNat = p.val
  rw [BitVec.toNat_ofNat]
  exact Nat.mod_eq_of_lt (lt_of_lt_of_le p.isLt hn)

/-- Two one-column arrays laid side by side: column 0 of the result is the first array. -/
theorem concatenate_cols_left {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (0 : Fin 2)) = a (ix2 p (0 : Fin 1)) := by
  refine concatenate_pair_apply_left (1 : Fin 2) a b h (ix2 p (0 : Fin 2)) rfl (ix2 p (0 : Fin 1)) ?_
  intro c
  match c with
  | ⟨0, _⟩ => rfl
  | ⟨1, _⟩ => rfl

/-- Two one-column arrays laid side by side: column 1 of the result is the second array. -/
theorem concatenate_cols_right {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (1 : Fin 2)) = b (ix2 p (0 : Fin 1)) := by
  refine concatenate_pair_apply_right (1 : Fin 2) a b h (ix2 p (1 : Fin 2)) rfl rfl (ix2 p (0 : Fin 1)) ?_ ?_
  · intro c hc
    match c with
    | ⟨0, _⟩ => rfl
    | ⟨1, _⟩ => exact absurd rfl hc
  · rfl

/-- A vector broadcast along a new trailing unit axis reads, at row `p`, the vector at `p`. -/
theorem broadcastInDim_col_apply {n : Nat} (hb : (⟨1, ![n]⟩ : Shape).BroadcastsInDim ⟨2, ![n, 1]⟩ ![0])
    (v : (⟨1, ![n]⟩ : Shape).Idx → α) (p : Fin n) (q : Fin 1) :
    broadcastInDim ⟨2, ![n, 1]⟩ ![0] hb v (ix2 p q) = v (ix1 p) := by
  refine broadcastInDim_apply ![0] hb v (ix2 p q) (ix1 p) ?_
  intro a
  match a with
  | ⟨0, _⟩ =>
    show p.val = if n = 1 then 0 else p.val
    split
    · omega
    · rfl

/-- A one-column array read as a vector holds, at `p`, the array's entry of row `p`. -/
theorem shapeCast_col_apply {n : Nat} (v : (⟨2, ![n, 1]⟩ : Shape).Idx → α)
    (h : (⟨2, ![n, 1]⟩ : Shape).ShapeCasts ⟨1, ![n]⟩) (p : Fin n) :
    shapeCast ⟨1, ![n]⟩ v h (ix1 p) = v (ix2 p (0 : Fin 1)) := by
  refine shapeCast_apply v h (ix1 p) (ix2 p (0 : Fin 1)) ?_
  rw [Shape.rowMajor_val_two, Shape.rowMajor_val_one]
  show p.val * 1 + 0 = p.val
  omega

end Cert.LibIndexWords
-- ==== Proof.TakeBridge.lean ====
/-
  The guarded take of rows, on sources that are row numbers, is the plain gather.

  The sources of all edges are row 0 of the edge array followed by the numbers 0, 1, …, 99999. When every source word of
  the edge array is, signed, at least 0 and below 100000, every entry of that vector spells a number below 100000.
  On such a vector the wrap of negative indices is the identity, both range tests pass on every row, the "and" of the
  tests over each row is one, and so the selection between the gathered row and the fill value keeps the gathered row
  everywhere. The aggregation is then the scatter-add of the plainly gathered rows scaled by the edge weights.
-/
import proofs.«431147_j19911468384625_1_alg».proof.Proof.KernelDefs
import proofs.«431147_j19911468384625_1_alg».proof.Proof.LibTakeMask
import proofs.«431147_j19911468384625_1_alg».proof.Proof.LibIndexWords
import Idealize.ShloMosaic.Lib.Affine
import Idealize.ShloMosaic.Lib.ValueIdx

noncomputable section

namespace Cert.KernelIdeal.TakeBridge

open Cert.KernelIdeal Cert.KernelIdeal.Gen Cert.KernelIdeal.Fold Idealize.ShloMosaic Idealize.ShloMosaic.ValueIdx

variable {F : FTy → Type} [FloatOps F]

/-- Row 0 of the edge array, as a vector: the source words of the edges proper. -/
def srcRowK (e : IVec S2x1600000 32) : IVec S1600000 32 :=
  shapeCast S1600000 (extractStridedSlice S1x1600000 ![0, 0] e slices_S2x1600000_S1x1600000_0_0) shapeCasts_S1x1600000_S1600000

/-- When every source word of the edge array is, signed, at least 0 and below 100000, every entry of the sources of all
    edges (those words, then the numbers 0 … 99999) spells a number below 100000. -/
theorem sK_lt (e : IVec S2x1600000 32)
    (he : ∀ i : S1600000.Idx, IntOp.cmpi .sge (srcRowK e i) 0#32 = 1#1 ∧ IntOp.cmpi .slt (srcRowK e i) 100000#32 = 1#1)
    (p : S1700000.Idx) : (sK e p).toNat < 100000 := by
  unfold sK
  exact Cert.TakeMask.concat_iota_toNat_lt (srcRowK e) 100000 (le_refl _) (by omega)
    (fun i => Cert.TakeMask.toNat_lt_of_cmp 100000 (by omega) _ (he i).1 (he i).2)
    concatenates_S1600000_S100000_S1700000_d0 p

/-- On a vector of row numbers the wrapped column holds, at row p, the vector's word at p: the wrap adds nothing to a
    word that is not negative. -/
theorem wrapK_apply (s : IVec S1700000 32) (hs : ∀ p : S1700000.Idx, (s p).toNat < 100000) (p : Fin 1700000) (q : Fin 1) :
    wrapK s (ix2 p q) = s (ix1 p) := by
  unfold wrapK
  rw [Cert.LibIndexWords.broadcastInDim_col_apply]
  show Scalar.select (IntOp.cmpi .slt (s (ix1 p)) 0#32) (IntOp.addi (s (ix1 p)) 100000#32) (s (ix1 p)) = s (ix1 p)
  exact Cert.TakeMask.wrap_of_nonneg _ _ (by have := hs (ix1 p); omega)

/-- On a vector of row numbers both range tests pass at every entry of the wrapped column. -/
theorem tests_pass (s : IVec S1700000 32) (hs : ∀ p : S1700000.Idx, (s p).toNat < 100000) (k : S1700000x1.Idx) :
    andi (cmpi .sge (wrapK s) (broadcastInDim S1700000x1 ![] bcast_S_S1700000x1 (constantI S_ 32 0#32)))
      (cmpi .sle (wrapK s) (broadcastInDim S1700000x1 ![0, 1] bcast_S1x1_S1700000x1_0_1
        (broadcastInDim S1x1 ![1] bcast_S1_S1x1_1 (constantI S1 32 99999#32)))) k = 1#1 := by
  obtain ⟨p, q, rfl⟩ : ∃ (p : Fin 1700000) (q : Fin 1), k = ix2 p q := ⟨k 0, k 1, eq_ix2 k⟩
  show IntOp.andi (IntOp.cmpi .sge (wrapK s (ix2 p q)) 0#32) (IntOp.cmpi .sle (wrapK s (ix2 p q)) 99999#32) = 1#1
  rw [wrapK_apply s hs p q]
  exact IntOp.andi_eq_one.2 (Cert.TakeMask.cmp_of_toNat_lt 100000 (by omega) _ (hs (ix1 p)))

/-- On a vector of row numbers the guarded take is the plain gather. -/
theorem takeK_eq (h : FVec F S100000x128 .f32) (s : IVec S1700000 32) (hs : ∀ p : S1700000.Idx, (s p).toNat < 100000) :
    takeK h s = Host.gather gather_S100000x128_S1700000x1_S1700000x128_1_0_n_n_0_1_1128 h (wrapK s) := by
  unfold takeK
  refine Cert.TakeMask.select_of_all _ _ _ fun i => ?_
  unfold broadcastInDim
  exact Cert.TakeMask.reduce_andi_of_all _ _ reducesTo_S1700000x1_S1700000_d1 h_S_ rfl (tests_pass s hs) _

/-- So the aggregation is the scatter-add of the plainly gathered rows scaled by the edge weights. -/
theorem aggK_eq (h : FVec F S100000x128 .f32) (s d : IVec S1700000 32) (nu : FVec F S1700000 .f32)
    (hs : ∀ p : S1700000.Idx, (s p).toNat < 100000) :
    aggK h s d nu = Host.scatterAdd scatter_S100000x128_S1700000x1_S1700000x128_1_0_0_1
      (broadcastInDim S100000x128 ![] bcast_S_S100000x128 (constant (F := F) S_ .f32 0x00000000#32))
      (broadcastInDim S1700000x1 ![0] bcast_S1700000_S1700000x1_0 d)
      (mulf (Host.gather gather_S100000x128_S1700000x1_S1700000x128_1_0_n_n_0_1_1128 h (wrapK s))
        (broadcastInDim S1700000x128 ![0, 1] bcast_S1700000x1_S1700000x128_0_1
          (broadcastInDim S1700000x1 ![0] bcast_S1700000_S1700000x1_0 nu))) := by
  unfold aggK
  rw [takeK_eq h s hs]

end Cert.KernelIdeal.TakeBridge

end
-- ==== Proof.RefStages.lean ====
/-
  The reference program's stages, read as the shared specification's functions.

  The first matrix product is the specification's product of the node features and the first weight matrix. From the
  aggregated rows a (kept as an arbitrary array) the next operations add the bias, clamp below at zero, take every row's
  mean and variance over its 128 entries, normalise, scale and shift: entry (r, j) of the result is
    (h r j − mean r) · rsqrt (var r + ε) · g j + be j,   h r k = max (a (r, k) + b k) 0.
  The second layer repeats the same operations on the second aggregate with its own bias, scale and shift.
-/
import proofs.«431147_j19911468384625_1_alg».proof.Proof.RefRead
import proofs.«431147_j19911468384625_1_alg».proof.Proof.Spec
import Idealize.ShloMosaic.Lib.ValueIdx
import Idealize.ShloMosaic.PureOps.Ideal.Laws

set_option maxRecDepth 16384

noncomputable section

namespace Cert.ReferenceIdeal.Stages

open Cert.ReferenceIdeal Cert.ReferenceIdeal.Read Idealize.ShloMosaic Idealize.ShloMosaic.ValueIdx

/-! ## Index equations: the composed index functions of the stages are the coordinate constructors. -/

/-- The left operand of a matrix product is read at (row of i, k). -/
theorem lidx30 (i : S100000x128.Idx) (k : Fin 128) : lidx_main_v30 i k = ix2 (Cert.GcnSpec.rowOf i) k :=
  funext fun a => Fin.ext (by match a with | ⟨0, _⟩ => rfl | ⟨1, _⟩ => rfl)

/-- The right operand of a matrix product is read at (k, column of i). -/
theorem ridx30 (i : S100000x128.Idx) (k : Fin 128) : ridx_main_v30 i k = ix2 k (Cert.GcnSpec.colOf i) :=
  funext fun a => Fin.ext (by match a with | ⟨0, _⟩ => rfl | ⟨1, _⟩ => rfl)

/-! ## The first matrix product -/

theorem mm1 (x0 : (⟨S100000x128, .f32⟩ : BufTy).Contents (Elt Ideal)) (x2 : (⟨S128x128, .f32⟩ : BufTy).Contents (Elt Ideal)) :
    val_main_v30 (F := Ideal) x0 x2 = Cert.GcnSpec.mm x0 x2 := by
  funext i
  rw [val_main_v30_apply]
  simp only [lidx30, ridx30]
  rfl

/-! ## The first layer's normalisation -/

/-- A vector broadcast along the rows is read at the column. -/
theorem idx44_45 (r : Fin 100000) (k : Fin 128) : idx_main_v44 (idx_main_v45 (ix2 r k)) = ix1 k :=
  funext fun a => Fin.ext (by match a with | ⟨0, _⟩ => rfl)

/-- The activated entry at (r, k): the aggregate plus the bias, clamped below at zero. -/
theorem act1 (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal)) (r : Fin 100000) (k : Fin 128) :
    val_main_v47 (F := Ideal) x0 x1 x2 x3 (ix2 r k)
      = Cert.GcnSpec.act (val_main_v43 (F := Ideal) x0 x1 x2) (fun j => x3 (ix1 j)) r k := by
  rw [val_main_v47_apply, val_main_v46_apply, val_main_v45_apply, val_main_v44_apply, val_main_call1_v0_apply,
    val_main_call1_cst_apply, idx44_45]
  generalize val_main_v43 (F := Ideal) x0 x1 x2 = a
  rfl

/-- The row sum of the column (r, ·) runs over the entries (r, k). -/
theorem idx48_49 (r : Fin 100000) (z : Fin 1) (k : Fin 128) : idx_main_v48 (idx_main_v49 (ix2 r z)) k = ix2 r k :=
  funext fun a => Fin.ext (by match a with | ⟨0, _⟩ => rfl | ⟨1, _⟩ => rfl)

/-- The mean of row r: the sum of its activated entries over 128. -/
theorem mean1 (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal)) (r : Fin 100000) (z : Fin 1) :
    val_main_v51 (F := Ideal) x0 x1 x2 x3 (ix2 r z)
      = Cert.GcnSpec.mean (val_main_v43 (F := Ideal) x0 x1 x2) (fun j => x3 (ix1 j)) r := by
  rw [val_main_v51_apply, val_main_v49_apply, val_main_v50_apply, val_main_cst_10_apply, val_main_v48_apply,
    val_main_cst_9_apply]
  simp only [idx48_49, act1]
  generalize val_main_v43 (F := Ideal) x0 x1 x2 = a
  simp only [Ideal.ofBits_def, Ideal.ofBits_zero_f32, zero_add, Ideal.hostDivf_def]
  rfl

/-- A column broadcast along the entries of a row is read at the row. -/
theorem idx52 (r : Fin 100000) (k : Fin 128) : idx_main_v52 (ix2 r k) = ix2 r (0 : Fin 1) :=
  funext fun a => Fin.ext (by match a with | ⟨0, _⟩ => rfl | ⟨1, _⟩ => rfl)

/-- The squared deviation of the activated entry (r, k) from its row's mean. -/
theorem dev1 (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal)) (r : Fin 100000) (k : Fin 128) :
    val_main_v54 (F := Ideal) x0 x1 x2 x3 (ix2 r k)
      = (Cert.GcnSpec.act (val_main_v43 (F := Ideal) x0 x1 x2) (fun j => x3 (ix1 j)) r k
          - Cert.GcnSpec.mean (val_main_v43 (F := Ideal) x0 x1 x2) (fun j => x3 (ix1 j)) r)
        * (Cert.GcnSpec.act (val_main_v43 (F := Ideal) x0 x1 x2) (fun j => x3 (ix1 j)) r k
          - Cert.GcnSpec.mean (val_main_v43 (F := Ideal) x0 x1 x2) (fun j => x3 (ix1 j)) r) := by
  rw [val_main_v54_apply, val_main_v53_apply, val_main_v52_apply, idx52, mean1, act1]
  generalize val_main_v43 (F := Ideal) x0 x1 x2 = a
  rfl

theorem idx55_56 (r : Fin 100000) (z : Fin 1) (k : Fin 128) : idx_main_v55 (idx_main_v56 (ix2 r z)) k = ix2 r k :=
  funext fun a => Fin.ext (by match a with | ⟨0, _⟩ => rfl | ⟨1, _⟩ => rfl)

/-- The variance of row r: the sum of the squared deviations from the mean over 128. -/
theorem var1 (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal)) (r : Fin 100000) (z : Fin 1) :
    val_main_v58 (F := Ideal) x0 x1 x2 x3 (ix2 r z)
      = Cert.GcnSpec.var (val_main_v43 (F := Ideal) x0 x1 x2) (fun j => x3 (ix1 j)) r := by
  rw [val_main_v58_apply, val_main_v56_apply, val_main_v57_apply, val_main_cst_12_apply, val_main_v55_apply,
    val_main_cst_11_apply]
  simp only [idx55_56, dev1]
  generalize val_main_v43 (F := Ideal) x0 x1 x2 = a
  simp only [Ideal.ofBits_def, Ideal.ofBits_zero_f32, zero_add, Ideal.hostDivf_def]
  rfl

theorem idx59 (r : Fin 100000) (k : Fin 128) : idx_main_v59 (ix2 r k) = ix2 r (0 : Fin 1) :=
  funext fun a => Fin.ext (by match a with | ⟨0, _⟩ => rfl | ⟨1, _⟩ => rfl)

theorem idx64 (r : Fin 100000) (k : Fin 128) : idx_main_v64 (ix2 r k) = ix2 r (0 : Fin 1) :=
  funext fun a => Fin.ext (by match a with | ⟨0, _⟩ => rfl | ⟨1, _⟩ => rfl)

theorem idx66_67 (r : Fin 100000) (k : Fin 128) : idx_main_v66 (idx_main_v67 (ix2 r k)) = ix1 k :=
  funext fun a => Fin.ext (by match a with | ⟨0, _⟩ => rfl)

theorem idx69_70 (r : Fin 100000) (k : Fin 128) : idx_main_v69 (idx_main_v70 (ix2 r k)) = ix1 k :=
  funext fun a => Fin.ext (by match a with | ⟨0, _⟩ => rfl)

/-- Entry (r, c) of the first layer's result. -/
theorem ln1_at (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x6 : (⟨S128, .f32⟩ : BufTy).Contents (Elt Ideal))
    (x7 : (⟨S128, .f32⟩ : BufTy).Contents (Elt Ideal)) (r : Fin 100000) (c : Fin 128) :
    val_main_v71 (F := Ideal) x0 x1 x2 x3 x6 x7 (ix2 r c)
      = Cert.GcnSpec.lnAt (val_main_v43 (F := Ideal) x0 x1 x2) (fun j => x3 (ix1 j)) (fun j => x6 (ix1 j))
          (fun j => x7 (ix1 j)) r c := by
  rw [val_main_v71_apply, val_main_v70_apply, val_main_v69_apply, val_main_v68_apply, val_main_v67_apply,
    val_main_v66_apply, val_main_v65_apply, val_main_v64_apply, val_main_v63_apply, val_main_v62_apply,
    val_main_v61_apply, val_main_cst_13_apply, val_main_v60_apply, val_main_v59_apply, idx69_70, idx66_67, idx64, idx59,
    var1, mean1, act1]
  generalize val_main_v43 (F := Ideal) x0 x1 x2 = a
  rfl

theorem ln1 (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x6 : (⟨S128, .f32⟩ : BufTy).Contents (Elt Ideal))
    (x7 : (⟨S128, .f32⟩ : BufTy).Contents (Elt Ideal)) :
    val_main_v71 (F := Ideal) x0 x1 x2 x3 x6 x7
      = Cert.GcnSpec.ln (val_main_v43 (F := Ideal) x0 x1 x2) (fun j => x3 (ix1 j)) (fun j => x6 (ix1 j))
          (fun j => x7 (ix1 j)) := by
  funext i
  obtain ⟨r, c, rfl⟩ : ∃ (r : Fin 100000) (c : Fin 128), i = ix2 r c := ⟨i 0, i 1, eq_ix2 i⟩
  exact (ln1_at x0 x1 x2 x3 x6 x7 r c).trans (Cert.GcnSpec.ln_apply _ _ _ _ r c).symm

/-! ## The second matrix product -/

theorem lidx98 (i : S100000x128.Idx) (k : Fin 128) : lidx_main_v98 i k = ix2 (Cert.GcnSpec.rowOf i) k :=
  funext fun a => Fin.ext (by match a with | ⟨0, _⟩ => rfl | ⟨1, _⟩ => rfl)

theorem ridx98 (i : S100000x128.Idx) (k : Fin 128) : ridx_main_v98 i k = ix2 k (Cert.GcnSpec.colOf i) :=
  funext fun a => Fin.ext (by match a with | ⟨0, _⟩ => rfl | ⟨1, _⟩ => rfl)

theorem mm2 (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x128, .f32⟩ : BufTy).Contents (Elt Ideal))
    (x6 : (⟨S128, .f32⟩ : BufTy).Contents (Elt Ideal))
    (x7 : (⟨S128, .f32⟩ : BufTy).Contents (Elt Ideal)) :
    val_main_v98 (F := Ideal) x0 x1 x2 x3 x4 x6 x7
      = Cert.GcnSpec.mm (val_main_v71 (F := Ideal) x0 x1 x2 x3 x6 x7) x4 := by
  funext i
  rw [val_main_v98_apply]
  generalize val_main_v71 (F := Ideal) x0 x1 x2 x3 x6 x7 = y
  simp only [lidx98, ridx98]
  rfl

/-! ## The second layer's normalisation: the same operations on the second aggregate -/

theorem idx112_113 (r : Fin 100000) (k : Fin 128) : idx_main_v112 (idx_main_v113 (ix2 r k)) = ix1 k :=
  funext fun a => Fin.ext (by match a with | ⟨0, _⟩ => rfl)

/-- The activated entry at (r, k). -/
theorem act2 (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x128, .f32⟩ : BufTy).Contents (Elt Ideal))
    (x5 : (⟨S128, .f32⟩ : BufTy).Contents (Elt Ideal))
    (x6 : (⟨S128, .f32⟩ : BufTy).Contents (Elt Ideal))
    (x7 : (⟨S128, .f32⟩ : BufTy).Contents (Elt Ideal)) (r : Fin 100000) (k : Fin 128) :
    val_main_v115 (F := Ideal) x0 x1 x2 x3 x4 x5 x6 x7 (ix2 r k)
      = Cert.GcnSpec.act (val_main_v111 (F := Ideal) x0 x1 x2 x3 x4 x6 x7) (fun j => x5 (ix1 j)) r k := by
  rw [val_main_v115_apply, val_main_v114_apply, val_main_v113_apply, val_main_v112_apply, val_main_call3_v0_apply,
    val_main_call3_cst_apply, idx112_113]
  generalize val_main_v111 (F := Ideal) x0 x1 x2 x3 x4 x6 x7 = a
  rfl

theorem idx116_117 (r : Fin 100000) (z : Fin 1) (k : Fin 128) : idx_main_v116 (idx_main_v117 (ix2 r z)) k = ix2 r k :=
  funext fun a => Fin.ext (by match a with | ⟨0, _⟩ => rfl | ⟨1, _⟩ => rfl)

/-- The mean of row r. -/
theorem mean2 (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x128, .f32⟩ : BufTy).Contents (Elt Ideal))
    (x5 : (⟨S128, .f32⟩ : BufTy).Contents (Elt Ideal))
    (x6 : (⟨S128, .f32⟩ : BufTy).Contents (Elt Ideal))
    (x7 : (⟨S128, .f32⟩ : BufTy).Contents (Elt Ideal)) (r : Fin 100000) (z : Fin 1) :
    val_main_v119 (F := Ideal) x0 x1 x2 x3 x4 x5 x6 x7 (ix2 r z)
      = Cert.GcnSpec.mean (val_main_v111 (F := Ideal) x0 x1 x2 x3 x4 x6 x7) (fun j => x5 (ix1 j)) r := by
  rw [val_main_v119_apply, val_main_v117_apply, val_main_v118_apply, val_main_cst_26_apply, val_main_v116_apply,
    val_main_cst_25_apply]
  simp only [idx116_117, act2]
  generalize val_main_v111 (F := Ideal) x0 x1 x2 x3 x4 x6 x7 = a
  simp only [Ideal.ofBits_def, Ideal.ofBits_zero_f32, zero_add, Ideal.hostDivf_def]
  rfl

theorem idx120 (r : Fin 100000) (k : Fin 128) : idx_main_v120 (ix2 r k) = ix2 r (0 : Fin 1) :=
  funext fun a => Fin.ext (by match a with | ⟨0, _⟩ => rfl | ⟨1, _⟩ => rfl)

/-- The squared deviation of the activated entry (r, k) from its row's mean. -/
theorem dev2 (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x128, .f32⟩ : BufTy).Contents (Elt Ideal))
    (x5 : (⟨S128, .f32⟩ : BufTy).Contents (Elt Ideal))
    (x6 : (⟨S128, .f32⟩ : BufTy).Contents (Elt Ideal))
    (x7 : (⟨S128, .f32⟩ : BufTy).Contents (Elt Ideal)) (r : Fin 100000) (k : Fin 128) :
    val_main_v122 (F := Ideal) x0 x1 x2 x3 x4 x5 x6 x7 (ix2 r k)
      = (Cert.GcnSpec.act (val_main_v111 (F := Ideal) x0 x1 x2 x3 x4 x6 x7) (fun j => x5 (ix1 j)) r k
          - Cert.GcnSpec.mean (val_main_v111 (F := Ideal) x0 x1 x2 x3 x4 x6 x7) (fun j => x5 (ix1 j)) r)
        * (Cert.GcnSpec.act (val_main_v111 (F := Ideal) x0 x1 x2 x3 x4 x6 x7) (fun j => x5 (ix1 j)) r k
          - Cert.GcnSpec.mean (val_main_v111 (F := Ideal) x0 x1 x2 x3 x4 x6 x7) (fun j => x5 (ix1 j)) r) := by
  rw [val_main_v122_apply, val_main_v121_apply, val_main_v120_apply, idx120, mean2, act2]
  generalize val_main_v111 (F := Ideal) x0 x1 x2 x3 x4 x6 x7 = a
  rfl

theorem idx123_124 (r : Fin 100000) (z : Fin 1) (k : Fin 128) : idx_main_v123 (idx_main_v124 (ix2 r z)) k = ix2 r k :=
  funext fun a => Fin.ext (by match a with | ⟨0, _⟩ => rfl | ⟨1, _⟩ => rfl)

/-- The variance of row r. -/
theorem var2 (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x128, .f32⟩ : BufTy).Contents (Elt Ideal))
    (x5 : (⟨S128, .f32⟩ : BufTy).Contents (Elt Ideal))
    (x6 : (⟨S128, .f32⟩ : BufTy).Contents (Elt Ideal))
    (x7 : (⟨S128, .f32⟩ : BufTy).Contents (Elt Ideal)) (r : Fin 100000) (z : Fin 1) :
    val_main_v126 (F := Ideal) x0 x1 x2 x3 x4 x5 x6 x7 (ix2 r z)
      = Cert.GcnSpec.var (val_main_v111 (F := Ideal) x0 x1 x2 x3 x4 x6 x7) (fun j => x5 (ix1 j)) r := by
  rw [val_main_v126_apply, val_main_v124_apply, val_main_v125_apply, val_main_cst_28_apply, val_main_v123_apply,
    val_main_cst_27_apply]
  simp only [idx123_124, dev2]
  generalize val_main_v111 (F := Ideal) x0 x1 x2 x3 x4 x6 x7 = a
  simp only [Ideal.ofBits_def, Ideal.ofBits_zero_f32, zero_add, Ideal.hostDivf_def]
  rfl

theorem idx127 (r : Fin 100000) (k : Fin 128) : idx_main_v127 (ix2 r k) = ix2 r (0 : Fin 1) :=
  funext fun a => Fin.ext (by match a with | ⟨0, _⟩ => rfl | ⟨1, _⟩ => rfl)

theorem idx132 (r : Fin 100000) (k : Fin 128) : idx_main_v132 (ix2 r k) = ix2 r (0 : Fin 1) :=
  funext fun a => Fin.ext (by match a with | ⟨0, _⟩ => rfl | ⟨1, _⟩ => rfl)

theorem idx134_135 (r : Fin 100000) (k : Fin 128) : idx_main_v134 (idx_main_v135 (ix2 r k)) = ix1 k :=
  funext fun a => Fin.ext (by match a with | ⟨0, _⟩ => rfl)

theorem idx137_138 (r : Fin 100000) (k : Fin 128) : idx_main_v137 (idx_main_v138 (ix2 r k)) = ix1 k :=
  funext fun a => Fin.ext (by match a with | ⟨0, _⟩ => rfl)

/-- Entry (r, c) of the second layer's result. -/
theorem ln2_at (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x128, .f32⟩ : BufTy).Contents (Elt Ideal))
    (x5 : (⟨S128, .f32⟩ : BufTy).Contents (Elt Ideal))
    (x6 : (⟨S128, .f32⟩ : BufTy).Contents (Elt Ideal))
    (x7 : (⟨S128, .f32⟩ : BufTy).Contents (Elt Ideal))
    (x8 : (⟨S128, .f32⟩ : BufTy).Contents (Elt Ideal))
    (x9 : (⟨S128, .f32⟩ : BufTy).Contents (Elt Ideal)) (r : Fin 100000) (c : Fin 128) :
    val_main_v139 (F := Ideal) x0 x1 x2 x3 x4 x5 x6 x7 x8 x9 (ix2 r c)
      = Cert.GcnSpec.lnAt (val_main_v111 (F := Ideal) x0 x1 x2 x3 x4 x6 x7) (fun j => x5 (ix1 j)) (fun j => x8 (ix1 j))
          (fun j => x9 (ix1 j)) r c := by
  rw [val_main_v139_apply, val_main_v138_apply, val_main_v137_apply, val_main_v136_apply, val_main_v135_apply,
    val_main_v134_apply, val_main_v133_apply, val_main_v132_apply, val_main_v131_apply, val_main_v130_apply,
    val_main_v129_apply, val_main_cst_29_apply, val_main_v128_apply, val_main_v127_apply, idx137_138, idx134_135, idx132,
    idx127, var2, mean2, act2]
  generalize val_main_v111 (F := Ideal) x0 x1 x2 x3 x4 x6 x7 = a
  rfl

theorem ln2 (x0 : (⟨S100000x128, .f32⟩ : BufTy).Contents (Elt Ideal))
    (x1 : (⟨S2x1600000, .i32⟩ : BufTy).Contents (Elt Ideal))
    (x2 : (⟨S128x128, .f32⟩ : BufTy).Contents (Elt Ideal))
    (x3 : (⟨S128, .f32⟩ : BufTy).Contents (Elt Ideal))
    (x4 : (⟨S128x128, .f32⟩ : BufTy).Contents (Elt Ideal))
    (x5 : (⟨S128, .f32⟩ : BufTy).Contents (Elt Ideal))
    (x6 : (⟨S128, .f32⟩ : BufTy).Contents (Elt Ideal))
    (x7 : (⟨S128, .f32⟩ : BufTy).Contents (Elt Ideal))
    (x8 : (⟨S128, .f32⟩ : BufTy).Contents (Elt Ideal))
    (x9 : (⟨S128, .f32⟩ : BufTy).Contents (Elt Ideal)) :
    val_main_v139 (F := Ideal) x0 x1 x2 x3 x4 x5 x6 x7 x8 x9
      = Cert.GcnSpec.ln (val_main_v111 (F := Ideal) x0 x1 x2 x3 x4 x6 x7) (fun j => x5 (ix1 j)) (fun j => x8 (ix1 j))
          (fun j => x9 (ix1 j)) := by
  funext i
  obtain ⟨r, c, rfl⟩ : ∃ (r : Fin 100000) (c : Fin 128), i = ix2 r c := ⟨i 0, i 1, eq_ix2 i⟩
  exact (ln2_at x0 x1 x2 x3 x4 x5 x6 x7 x8 x9 r c).trans (Cert.GcnSpec.ln_apply _ _ _ _ r c).symm

end Cert.ReferenceIdeal.Stages

end
-- ==== Proof.RefAgg.lean ====
/-
  The reference program's host values are the kernel program's.

  Both programs build, from the edge array, the edges' sources and destinations (the array's two rows, each followed
  by every node's own number), every node's degree, the masked inverse square root of the degrees, and from those the
  per-edge weights; and each layer's aggregation takes the rows of the layer's matrix product at the wrapped sources,
  scales them by the weights and adds them into the destinations' rows. The reference prints these as one operation
  per stage; here each stage is identified with the kernel program's named value, stage by stage, for any float family.
-/
import proofs.«431147_j19911468384625_1_alg».proof.Proof.RefRead
import proofs.«431147_j19911468384625_1_alg».proof.Proof.KernelDefs

noncomputable section

namespace Cert.KernelIdeal.Fold

open Cert.KernelIdeal Cert.KernelIdeal.Gen
open Idealize.ShloMosaic

variable {F : FTy → Type} [FloatOps F]

/-- The aggregation with a plain take: the rows of `h` at the wrapped sources, scaled by the edge weights, summed into
    each edge's destination row. -/
def aggPlain (h : FVec F S100000x128 .f32) (s d : IVec S1700000 32) (nu : FVec F S1700000 .f32) : FVec F S100000x128 .f32 :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 d)
    (mulf (Host.gather gather_S100000x128_S1700000x1_S1700000x128_1_0_n_n_0_1_1128 h (wrapK s))
      (broadcastInDim S1700000x128 ![0, 1] bcast_S1700000x1_S1700000x128_0_1 (broadcastInDim S1700000x1 ![0] bcast_S1700000_S1700000x1_0 nu)))

end Cert.KernelIdeal.Fold

namespace Cert.GcnBridge

open Idealize.ShloMosaic Cert.ReferenceIdeal.Read Cert.KernelIdeal.Fold

variable {F : FTy → Type} [FloatOps F]

/-! ## Layer 1 -/

/-- The sources. -/
theorem ref_s1 (x1 : (⟨Cert.ReferenceIdeal.S2x1600000, .i32⟩ : BufTy).Contents (Elt F)) : val_main_v5 (F := F) x1 = sK x1 := rfl

/-- The destinations. -/
theorem ref_d1 (x1 : (⟨Cert.ReferenceIdeal.S2x1600000, .i32⟩ : BufTy).Contents (Elt F)) : val_main_v6 (F := F) x1 = dK x1 := rfl

/-- The wrapped sources, as a column of start indices. -/
theorem ref_wrap_s1 (x1 : (⟨Cert.ReferenceIdeal.S2x1600000, .i32⟩ : BufTy).Contents (Elt F)) : val_main_v20 (F := F) x1 = wrapK (sK x1) := by
  unfold val_main_v20 val_main_v19 val_main_v16 val_main_v18 val_main_v15 val_main_v17 val_main_c val_main_c_3
  rw [ref_s1]
  rfl

/-- The wrapped destinations. -/
theorem ref_wrap_d1 (x1 : (⟨Cert.ReferenceIdeal.S2x1600000, .i32⟩ : BufTy).Contents (Elt F)) : val_main_v27 (F := F) x1 = wrapK (dK x1) := by
  unfold val_main_v27 val_main_v26 val_main_v23 val_main_v25 val_main_v22 val_main_v24 val_main_c_4 val_main_c_5
  rw [ref_d1]
  rfl

/-- The degrees. -/
theorem ref_deg1 (x1 : (⟨Cert.ReferenceIdeal.S2x1600000, .i32⟩ : BufTy).Contents (Elt F)) : val_main_v10 (F := F) x1 = degK (F := F) x1 := by
  unfold val_main_v10 val_main_v8 val_main_v9 val_main_v7 val_main_cst val_main_cst_0
  rw [ref_d1]
  rfl

/-- The masked inverse square roots of the degrees. -/
theorem ref_dinv1 (x1 : (⟨Cert.ReferenceIdeal.S2x1600000, .i32⟩ : BufTy).Contents (Elt F)) : val_main_v14 (F := F) x1 = dinvK (F := F) x1 := by
  unfold val_main_v14 val_main_v12 val_main_v13 val_main_v11 val_main_call0_v1 val_main_call0_v0 val_main_cst_1 val_main_cst_2
  rw [ref_deg1]
  rfl

/-- The per-edge weights. -/
theorem ref_nu1 (x1 : (⟨Cert.ReferenceIdeal.S2x1600000, .i32⟩ : BufTy).Contents (Elt F)) : val_main_v29 (F := F) x1 = normK (F := F) x1 := by
  unfold val_main_v29 val_main_v21 val_main_v28
  rw [ref_dinv1, ref_wrap_s1, ref_wrap_d1]
  rfl

/-- Layer 1's aggregation: the plain take of the matrix product's rows at the wrapped sources, scaled by the weights and
    summed into the destinations' rows. -/
theorem ref_agg1 (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x128, .f32⟩ : BufTy).Contents (Elt F)) :
    val_main_v43 (F := F) x0 x1 x2 = aggPlain (val_main_v30 (F := F) x0 x2) (sK x1) (dK x1) (normK (F := F) x1) := by
  unfold val_main_v43 val_main_v41 val_main_v42 val_main_v40 val_main_v37 val_main_v39 val_main_v38 val_main_v36
    val_main_v35 val_main_v32 val_main_v34 val_main_v31 val_main_v33 val_main_c_6 val_main_c_7 val_main_cst_8
  rw [ref_s1, ref_d1, ref_nu1]
  rfl

/-! ## Layer 2 -/

/-- The sources, built again. -/
theorem ref_s2 (x1 : (⟨Cert.ReferenceIdeal.S2x1600000, .i32⟩ : BufTy).Contents (Elt F)) : val_main_v73 (F := F) x1 = sK x1 := rfl

/-- The destinations, built again. -/
theorem ref_d2 (x1 : (⟨Cert.ReferenceIdeal.S2x1600000, .i32⟩ : BufTy).Contents (Elt F)) : val_main_v74 (F := F) x1 = dK x1 := rfl

/-- The wrapped sources. -/
theorem ref_wrap_s2 (x1 : (⟨Cert.ReferenceIdeal.S2x1600000, .i32⟩ : BufTy).Contents (Elt F)) : val_main_v88 (F := F) x1 = wrapK (sK x1) := by
  unfold val_main_v88 val_main_v87 val_main_v84 val_main_v86 val_main_v83 val_main_v85 val_main_c_18 val_main_c_19
  rw [ref_s2]
  rfl

/-- The wrapped destinations. -/
theorem ref_wrap_d2 (x1 : (⟨Cert.ReferenceIdeal.S2x1600000, .i32⟩ : BufTy).Contents (Elt F)) : val_main_v95 (F := F) x1 = wrapK (dK x1) := by
  unfold val_main_v95 val_main_v94 val_main_v91 val_main_v93 val_main_v90 val_main_v92 val_main_c_20 val_main_c_21
  rw [ref_d2]
  rfl

/-- The degrees. -/
theorem ref_deg2 (x1 : (⟨Cert.ReferenceIdeal.S2x1600000, .i32⟩ : BufTy).Contents (Elt F)) : val_main_v78 (F := F) x1 = degK (F := F) x1 := by
  unfold val_main_v78 val_main_v76 val_main_v77 val_main_v75 val_main_cst_14 val_main_cst_15
  rw [ref_d2]
  rfl

/-- The masked inverse square roots of the degrees. -/
theorem ref_dinv2 (x1 : (⟨Cert.ReferenceIdeal.S2x1600000, .i32⟩ : BufTy).Contents (Elt F)) : val_main_v82 (F := F) x1 = dinvK (F := F) x1 := by
  unfold val_main_v82 val_main_v80 val_main_v81 val_main_v79 val_main_call2_v1 val_main_call2_v0 val_main_cst_16 val_main_cst_17
  rw [ref_deg2]
  rfl

/-- The per-edge weights. -/
theorem ref_nu2 (x1 : (⟨Cert.ReferenceIdeal.S2x1600000, .i32⟩ : BufTy).Contents (Elt F)) : val_main_v97 (F := F) x1 = normK (F := F) x1 := by
  unfold val_main_v97 val_main_v89 val_main_v96
  rw [ref_dinv2, ref_wrap_s2, ref_wrap_d2]
  rfl

/-- Layer 2's aggregation. -/
theorem ref_agg2 (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x128, .f32⟩ : BufTy).Contents (Elt F)) (x3 : (⟨Cert.ReferenceIdeal.S128, .f32⟩ : BufTy).Contents (Elt F)) (x4 : (⟨Cert.ReferenceIdeal.S128x128, .f32⟩ : BufTy).Contents (Elt F)) (x6 x7 : (⟨Cert.ReferenceIdeal.S128, .f32⟩ : BufTy).Contents (Elt F)) :
    val_main_v111 (F := F) x0 x1 x2 x3 x4 x6 x7
      = aggPlain (val_main_v98 (F := F) x0 x1 x2 x3 x4 x6 x7) (sK x1) (dK x1) (normK (F := F) x1) := by
  unfold val_main_v111 val_main_v109 val_main_v110 val_main_v108 val_main_v105 val_main_v107 val_main_v106 val_main_v104
    val_main_v103 val_main_v100 val_main_v102 val_main_v99 val_main_v101 val_main_c_22 val_main_c_23 val_main_cst_24
  rw [ref_s2, ref_d2, ref_nu2]
  rfl

end Cert.GcnBridge

end
-- ==== Proof.RefValue.lean ====
/-
  Both programs' result as ONE function of the ten arguments, and the reference program's side of it.

  gcn x e W1 b1 W2 b2 g1 be1 g2 be2 = LN (AGG (LN (AGG (x · W1)) b1 g1 be1 · W2)) b2 g2 be2, where the matrix product and
  the row normalisation LN are the specification's, and AGG gathers rows at the (wrapped) edge sources, scales them by the
  edge weights and sums them by edge destination. The reference program's last stage is this function of its
  arguments: its two matrix products and two normalisations are the specification's, and its two aggregations are AGG of
  the edge list and weights both programs compute alike.
-/
import proofs.«431147_j19911468384625_1_alg».proof.Proof.RefStages
import proofs.«431147_j19911468384625_1_alg».proof.Proof.RefAgg
import proofs.«431147_j19911468384625_1_alg».proof.Proof.Spec

set_option maxRecDepth 16384

noncomputable section

namespace Cert.GcnBridge

open Idealize.ShloMosaic Idealize.ShloMosaic.ValueIdx
open Cert.ReferenceIdeal.Read Cert.KernelIdeal.Fold Cert.GcnSpec

/-- The whole computation, as a function of the arguments (named as the programs name them: x0 the node features,
    x1 the edge array, x2 and x4 the two weight matrices, x3 and x5 the biases, x6, x7 and x8, x9 the two layers' scale and shift). -/
def gcn (x0 : FVec Ideal Cert.KernelIdeal.S100000x128 .f32) (x1 : IVec Cert.KernelIdeal.S2x1600000 32)
    (x2 : FVec Ideal Cert.KernelIdeal.S128x128 .f32) (x3 : FVec Ideal Cert.KernelIdeal.S128 .f32)
    (x4 : FVec Ideal Cert.KernelIdeal.S128x128 .f32) (x5 x6 x7 x8 x9 : FVec Ideal Cert.KernelIdeal.S128 .f32) :
    FVec Ideal Cert.KernelIdeal.S100000x128 .f32 :=
  ln (aggPlain (F := Ideal)
      (mm (ln (aggPlain (F := Ideal) (mm x0 x2) (sK x1) (dK x1) (normK (F := Ideal) x1))
        (fun j => x3 (ix1 j)) (fun j => x6 (ix1 j)) (fun j => x7 (ix1 j))) x4)
      (sK x1) (dK x1) (normK (F := Ideal) x1))
    (fun j => x5 (ix1 j)) (fun j => x8 (ix1 j)) (fun j => x9 (ix1 j))

/-- The reference program's result stage is `gcn` of its arguments. -/
theorem ref_value (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x128, .f32⟩ : BufTy).Contents (Elt Ideal))
    (x5 x6 x7 x8 x9 : (⟨Cert.ReferenceIdeal.S128, .f32⟩ : BufTy).Contents (Elt Ideal)) :
    val_main_v139 (F := Ideal) x0 x1 x2 x3 x4 x5 x6 x7 x8 x9 = gcn x0 x1 x2 x3 x4 x5 x6 x7 x8 x9 := by
  rw [Cert.ReferenceIdeal.Stages.ln2, ref_agg2, Cert.ReferenceIdeal.Stages.mm2, Cert.ReferenceIdeal.Stages.ln1, ref_agg1,
    Cert.ReferenceIdeal.Stages.mm1]
  rfl

end Cert.GcnBridge

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.MatmulRegion0.lean ====
import proofs.«431147_j19911468384625_1_alg».proof.Proof.Gen.KernelIdeal.Frame
import proofs.«431147_j19911468384625_1_alg».proof.Proof.Spec
import proofs.«431147_j19911468384625_1_alg».proof.Proof.LibPlainMatmul
import Idealize.ShloMosaic.Lib.Pipeline.Value
import Idealize.ShloMosaic.Lib.ValueIdx
import Idealize.ShloMosaic.PureOps.Ideal.Laws

/-!
  The first tiled matrix product, from blocks to the whole array.

  The grid has 20 points. At point t the body multiplies rows 5000·t … 5000·t + 4999 of the 100000 × 128 left operand by
  the whole 128 × 128 right operand, into a zero accumulator, and that block of 5000 rows is written back to rows
  5000·t … 5000·t + 4999 of the output. Entry (p, q) of the block product is the sum over k of left (5000·t + p, k) ·
  right (k, q), which is entry (5000·t + p, q) of the product of the whole arrays; the 20 row blocks tile the 100000 rows,
  so after the last point the output array is the whole product.
-/

set_option maxRecDepth 16384

noncomputable section

namespace Cert.KernelIdeal.MatmulRegion0
open Cert.KernelIdeal Cert.KernelIdeal.Gen Idealize.ShloMosaic Idealize.ShloMosaic.TcCoe Idealize.ShloMosaic.ValueIdx Idealize.SL.Sem

/-- The zero offsets, however spelt. -/
theorem zero_offsets : (![0, 0] : Fin 2 → Nat) = fun _ => 0 := funext fun a => by fin_cases a <;> rfl

/-- The body's dimension numbers are the plain ones: contract the left operand's columns with the right operand's rows. -/
theorem dims_plain : dot_S5000x128_S128x128_S5000x128_1_0_0_1_n_n = DotDims.plain 5000 128 128 := rfl

/-- Entry (p, q) of the body's product of two blocks: the sum over k of left (p, k) · right (k, q). The narrowing of
    both operands changes nothing over the extended reals. -/
theorem payload_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.PlainMatmul.apply none (truncf .bf16 x0 bitsLt_bf16_f32) (truncf .bf16 x1 bitsLt_bf16_f32) p q

/-- The block indices over the grid: the left operand's and the output's row block is the point's number, every other
    block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, at (x₀, x₁), is the array at row 5000·t + x₀, column x₁. -/
theorem lhs_block_apply (V : (c : Dev nD) → (b : Ref sig .tc) → Buf (Elt Ideal) ((c : Thread nD τ).loc b)) (c : Dev nD)
    (t : Fin cfg0.N) (x : S5000x128.Idx) (i : S100000x128.Idx)
    (h0 : (i 0).val = 5000 * t.val + (x 0).val) (h1 : (i 1).val = (x 1).val) :
    (iblk0 (F := Ideal) V c 0 t : Vec Ideal S5000x128 .f32) x = (V c main_arg0 : S100000x128.Idx → Elt Ideal .f32) i := by
  obtain ⟨e0, e1, -, -, -, -⟩ := idx_facts t
  unfold iblk0
  rw [View.read_apply]
  show V c main_arg0 _ = V c main_arg0 _
  refine congrArg _ ?_
  funext a
  apply Fin.ext
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- The right operand's block at every point is the whole array. -/
theorem rhs_block_apply (V : (c : Dev nD) → (b : Ref sig .tc) → Buf (Elt Ideal) ((c : Thread nD τ).loc b)) (c : Dev nD)
    (t : Fin cfg0.N) (x : S128x128.Idx) :
    (iblk0 (F := Ideal) V c 1 t : Vec Ideal S128x128 .f32) x = (V c main_arg2 : S128x128.Idx → Elt Ideal .f32) x := by
  obtain ⟨-, -, e2, e3, -, -⟩ := idx_facts t
  unfold iblk0
  rw [View.read_apply]
  show V c main_arg2 _ = V c main_arg2 _
  refine congrArg _ ?_
  funext a
  apply Fin.ext
  match a with
  | ⟨0, _⟩ => show win0_1.index t (0 : Fin 2) * 128 + 1 * (x 0).val = (x 0).val; rw [e2]; omega
  | ⟨1, _⟩ => show win0_1.index t (1 : Fin 2) * 128 + 1 * (x 1).val = (x 1).val; rw [e3]; omega

/-- Entry (p, q) of the block product at point t is entry (5000·t + p, q) of the product of the whole arrays. -/
theorem block_entry (V : (c : Dev nD) → (b : Ref sig .tc) → Buf (Elt Ideal) ((c : Thread nD τ).loc b)) (c : Dev nD)
    (t : Fin cfg0.N) (p : Fin 5000) (q : Fin 128) (i : S100000x128.Idx)
    (h0 : (i 0).val = 5000 * t.val + p.val) (h1 : (i 1).val = q.val) :
    k0_pay1 (iblk0 (F := Ideal) V c 0 t) (iblk0 (F := Ideal) V c 1 t) (ix2 p q)
      = Cert.GcnSpec.mm (V c main_arg0) (V c main_arg2) i := by
  obtain rfl : q = Cert.GcnSpec.colOf i := Fin.ext h1.symm
  rw [payload_apply]
  unfold Cert.GcnSpec.mm
  refine Finset.sum_congr rfl fun k _ => ?_
  rw [lhs_block_apply V c t (ix2 p k) (ix2 (Cert.GcnSpec.rowOf i) k) h0 rfl,
    rhs_block_apply V c t (ix2 k (Cert.GcnSpec.colOf i))]

/-- What point t writes back is block t of the product of the whole arrays. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.GcnSpec.mm (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, e4, e5⟩ := idx_facts t
  funext j
  obtain ⟨p, q, rfl⟩ : ∃ (p : Fin 5000) (q : Fin 128), j = ix2 p q := ⟨j 0, j 1, eq_ix2 j⟩
  refine block_entry V c t p q (((cfg0.win 2).blk t).view.emb (ix2 p q)) ?_ ?_
  · show win0_2.index t (0 : Fin 2) * 5000 + 1 * p.val = 5000 * t.val + p.val; rw [e4]; omega
  · show win0_2.index t (1 : Fin 2) * 128 + 1 * q.val = q.val; rw [e5]; omega

/-- An index of the output array is in point t's block iff each coordinate is in the block's range on its axis. -/
theorem mem_blk (t : Fin cfg0.N) (i : S100000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v30).slice (win0_2.rect t)).set ↔ _
  rw [View.set_slice_whole, Rect.mem_set_unit]
  exact Iff.rfl

/-- The 20 row blocks tile the 100000 rows (and the one column block is the 128 columns): row r is in block r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := by
    show (i 0).val / 5000 < grid0.N
    rw [N_0]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]
    omega

/-- After the region the output array is the product of the left operand and the right operand as the region found them. -/
theorem final (V : (c : Dev nD) → (b : Ref sig .tc) → Buf (Elt Ideal) ((c : Thread nD τ).loc b)) (c : Dev nD) :
    (dat0 (F := Ideal) V c).arrAt 2 cfg0.N = Cert.GcnSpec.mm (V c main_arg0) (V c main_arg2) :=
  (dat0 (F := Ideal) V c).arrAt_eq_of_cover 2 _ (fun t _ => flushed_eq V c t) cover

end Cert.KernelIdeal.MatmulRegion0

end
-- ==== Proof.MatmulRegion2.lean ====
import proofs.«431147_j19911468384625_1_alg».proof.Proof.Gen.KernelIdeal.Frame
import proofs.«431147_j19911468384625_1_alg».proof.Proof.Spec
import proofs.«431147_j19911468384625_1_alg».proof.Proof.LibPlainMatmul
import Idealize.ShloMosaic.Lib.Pipeline.Value
import Idealize.ShloMosaic.Lib.ValueIdx
import Idealize.ShloMosaic.PureOps.Ideal.Laws

/-!
  The second tiled matrix product, from blocks to the whole array.

  The same tiling as the first product, on other arrays. The grid has 20 points. At point t the body multiplies rows
  5000·t … 5000·t + 4999 of the 100000 × 128 left operand by the whole 128 × 128 right operand, after reshaping the left
  block to its own shape, into a zero accumulator, and that block of 5000 rows is written back to rows
  5000·t … 5000·t + 4999 of the output. Entry (p, q) of the block product is the sum over k of left (5000·t + p, k) ·
  right (k, q), which is entry (5000·t + p, q) of the product of the whole arrays; the 20 row blocks tile the 100000 rows,
  so after the last point the output array is the whole product.
-/

set_option maxRecDepth 16384

noncomputable section

namespace Cert.KernelIdeal.MatmulRegion2
open Cert.KernelIdeal Cert.KernelIdeal.Gen Idealize.ShloMosaic Idealize.ShloMosaic.TcCoe Idealize.ShloMosaic.ValueIdx Idealize.SL.Sem

/-- The zero offsets, however spelt. -/
theorem zero_offsets : (![0, 0] : Fin 2 → Nat) = fun _ => 0 := funext fun a => by fin_cases a <;> rfl

/-- The body's dimension numbers are the plain ones: contract the left operand's columns with the right operand's rows. -/
theorem dims_plain : dot_S5000x128_S128x128_S5000x128_1_0_0_1_n_n = DotDims.plain 5000 128 128 := rfl

/-- Entry (p, q) of the body's product of two blocks: the sum over k of left (p, k) · right (k, q). The reshaping of the
    left block to its own shape is the identity, and the narrowing of both operands changes nothing over the extended
    reals. -/
theorem payload_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  refine (Cert.PlainMatmul.apply none
    (truncf .bf16 (shapeCast S5000x128 x0 shapeCasts_S5000x128_S5000x128) bitsLt_bf16_f32)
    (truncf .bf16 x1 bitsLt_bf16_f32) p q).trans ?_
  rw [shapeCast_self]
  rfl

/-- The block indices over the grid: the left operand's and the output's row block is the point's number, every other
    block index is 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t, at (x₀, x₁), is the array at row 5000·t + x₀, column x₁. -/
theorem lhs_block_apply (V : (c : Dev nD) → (b : Ref sig .tc) → Buf (Elt Ideal) ((c : Thread nD τ).loc b)) (c : Dev nD)
    (t : Fin cfg2.N) (x : S5000x128.Idx) (i : S100000x128.Idx)
    (h0 : (i 0).val = 5000 * t.val + (x 0).val) (h1 : (i 1).val = (x 1).val) :
    (iblk2 (F := Ideal) V c 0 t : Vec Ideal S5000x128 .f32) x = (V c main_v41 : S100000x128.Idx → Elt Ideal .f32) i := by
  obtain ⟨e0, e1, -, -, -, -⟩ := idx_facts t
  unfold iblk2
  rw [View.read_apply]
  show V c main_v41 _ = V c main_v41 _
  refine congrArg _ ?_
  funext a
  apply Fin.ext
  match a with
  | ⟨0, _⟩ => show win2_0.index t (0 : Fin 2) * 5000 + 1 * (x 0).val = (i 0).val; rw [e0, h0]; omega
  | ⟨1, _⟩ => show win2_0.index t (1 : Fin 2) * 128 + 1 * (x 1).val = (i 1).val; rw [e1, h1]; omega

/-- The right operand's block at every point is the whole array. -/
theorem rhs_block_apply (V : (c : Dev nD) → (b : Ref sig .tc) → Buf (Elt Ideal) ((c : Thread nD τ).loc b)) (c : Dev nD)
    (t : Fin cfg2.N) (x : S128x128.Idx) :
    (iblk2 (F := Ideal) V c 1 t : Vec Ideal S128x128 .f32) x = (V c main_arg4 : S128x128.Idx → Elt Ideal .f32) x := by
  obtain ⟨-, -, e2, e3, -, -⟩ := idx_facts t
  unfold iblk2
  rw [View.read_apply]
  show V c main_arg4 _ = V c main_arg4 _
  refine congrArg _ ?_
  funext a
  apply Fin.ext
  match a with
  | ⟨0, _⟩ => show win2_1.index t (0 : Fin 2) * 128 + 1 * (x 0).val = (x 0).val; rw [e2]; omega
  | ⟨1, _⟩ => show win2_1.index t (1 : Fin 2) * 128 + 1 * (x 1).val = (x 1).val; rw [e3]; omega

/-- Entry (p, q) of the block product at point t is entry (5000·t + p, q) of the product of the whole arrays. -/
theorem block_entry (V : (c : Dev nD) → (b : Ref sig .tc) → Buf (Elt Ideal) ((c : Thread nD τ).loc b)) (c : Dev nD)
    (t : Fin cfg2.N) (p : Fin 5000) (q : Fin 128) (i : S100000x128.Idx)
    (h0 : (i 0).val = 5000 * t.val + p.val) (h1 : (i 1).val = q.val) :
    k2_pay1 (iblk2 (F := Ideal) V c 0 t) (iblk2 (F := Ideal) V c 1 t) (ix2 p q)
      = Cert.GcnSpec.mm (V c main_v41) (V c main_arg4) i := by
  obtain rfl : q = Cert.GcnSpec.colOf i := Fin.ext h1.symm
  rw [payload_apply]
  unfold Cert.GcnSpec.mm
  refine Finset.sum_congr rfl fun k _ => ?_
  rw [lhs_block_apply V c t (ix2 p k) (ix2 (Cert.GcnSpec.rowOf i) k) h0 rfl,
    rhs_block_apply V c t (ix2 k (Cert.GcnSpec.colOf i))]

/-- What point t writes back is block t of the product of the whole arrays. -/
theorem flushed_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (Cert.GcnSpec.mm (V c main_v41) (V c main_arg4)) := by
  show (cfg2.win 2).cut (grid2.coords t) ((dat2 (F := Ideal) V c).after 2 t) = _
  rw [after2_2]
  unfold out2_2
  rw [View.canon_unit_zero zero_offsets]
  simp only [View.ld_unit_zero (S := S5000x128) zero_offsets, View.ld_unit_zero (S := S128x128) zero_offsets]
  obtain ⟨-, -, -, -, e4, e5⟩ := idx_facts t
  funext j
  obtain ⟨p, q, rfl⟩ : ∃ (p : Fin 5000) (q : Fin 128), j = ix2 p q := ⟨j 0, j 1, eq_ix2 j⟩
  refine block_entry V c t p q (((cfg2.win 2).blk t).view.emb (ix2 p q)) ?_ ?_
  · show win2_2.index t (0 : Fin 2) * 5000 + 1 * p.val = 5000 * t.val + p.val; rw [e4]; omega
  · show win2_2.index t (1 : Fin 2) * 128 + 1 * q.val = q.val; rw [e5]; omega

/-- An index of the output array is in point t's block iff each coordinate is in the block's range on its axis. -/
theorem mem_blk (t : Fin cfg2.N) (i : S100000x128.Idx) :
    i ∈ ((cfg2.win 2).blk t).view.set
      ↔ ∀ a : Fin 2, win2_2.index t a * S5000x128.size a ≤ (i a).val
          ∧ (i a).val < win2_2.index t a * S5000x128.size a + S5000x128.size a := by
  show i ∈ ((View.whole main_v42).slice (win2_2.rect t)).set ↔ _
  rw [View.set_slice_whole, Rect.mem_set_unit]
  exact Iff.rfl

/-- The 20 row blocks tile the 100000 rows (and the one column block is the 128 columns): row r is in block r / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 5000 < cfg2.N := by
    show (i 0).val / 5000 < grid2.N
    rw [N_2]; omega
  obtain ⟨-, -, -, -, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]
    omega

/-- After the region the output array is the product of the left operand and the right operand as the region found them. -/
theorem final (V : (c : Dev nD) → (b : Ref sig .tc) → Buf (Elt Ideal) ((c : Thread nD τ).loc b)) (c : Dev nD) :
    (dat2 (F := Ideal) V c).arrAt 2 cfg2.N = Cert.GcnSpec.mm (V c main_v41) (V c main_arg4) :=
  (dat2 (F := Ideal) V c).arrAt_eq_of_cover 2 _ (fun t _ => flushed_eq V c t) cover

end Cert.KernelIdeal.MatmulRegion2

end
-- ==== Proof.LnRegion1.lean ====
import proofs.«431147_j19911468384625_1_alg».proof.Proof.Gen.KernelIdeal.Frame
import proofs.«431147_j19911468384625_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LnRegion1
open Cert.KernelIdeal Cert.KernelIdeal.Gen Idealize.ShloMosaic Idealize.ShloMosaic.TcCoe Idealize.ShloMosaic.ValueIdx Idealize.SL.Sem

/-! ## The layout operations of the body, read at an index written by coordinates -/

/-- One row of 128 entries broadcast over 5000 rows reads, at (p, q), the row's entry q. -/
theorem rowBroadcast_apply (v : FVec Ideal S1x128 .f32) (p : Fin 5000) (q : Fin 128) :
    broadcastTo S5000x128 v broadcasts_S1x128_S5000x128 (ix2 p q) = v (ix2 (0 : Fin 1) q) :=
  broadcastTo_1b_ab_apply v broadcasts_S1x128_S5000x128 p q

/-- One column of 5000 entries broadcast over 128 lanes reads, at (p, q), the column's entry p. -/
theorem colBroadcast_apply (w : FVec Ideal S5000x1 .f32) (p : Fin 5000) (q : Fin 128) :
    broadcastTo S5000x128 w broadcasts_S5000x1_S5000x128 (ix2 p q) = w (ix2 p (0 : Fin 1)) := by
  refine broadcastTo_apply w broadcasts_S5000x1_S5000x128 (ix2 p q) (ix2 p (0 : Fin 1)) fun ax => ?_
  match ax with
  | ⟨0, _⟩ => rfl
  | ⟨1, _⟩ => rfl

/-- A vector of 5000 entries viewed as a column reads, at (p, 0), its entry p. -/
theorem column_apply (u : FVec Ideal S5000 .f32) (p : Fin 5000) (z : Fin 1) :
    shapeCast S5000x1 u shapeCasts_S5000_S5000x1 (ix2 p z) = u (ix1 p) :=
  shapeCast_apply u shapeCasts_S5000_S5000x1 _ _ (by
    have hz : z.val = 0 := by omega
    rw [Shape.rowMajor_val_two, Shape.rowMajor_val_one]
    show p.val = p.val * 1 + z.val
    rw [hz, Nat.mul_one, Nat.add_zero])

/-- The sum over the 128 lanes, read at row p, is the sum over k of the entries (p, k). -/
theorem laneSum_apply (src : FVec Ideal S5000x128 .f32) (hφ : FKind.Formats .f32)
    (hacc : (0x00000000#32 : BitVec 32) = 0x00000000#32) (p : Fin 5000) :
    multiReduction .add [1] S5000 src 0x00000000#32 reduces_S5000x128_S5000 hφ hacc (ix1 p)
      = ∑ k : Fin 128, src (ix2 p k) := by
  refine (Ideal.multiReduction_add_single src 0x00000000#32 reduces_S5000x128_S5000 hφ hacc (ix1 p)).trans ?_
  refine Finset.sum_congr rfl fun k _ => congrArg src (funext fun ax => Fin.ext ?_)
  match ax with
  | ⟨0, _⟩ => rfl
  | ⟨1, _⟩ => rfl

/-- The reciprocal square root of a vector at an index is that of the entry. -/
theorem rsqrt_apply {s : Shape} (v : FVec Ideal s .f32) (i : s.Idx) : rsqrt v i = Ideal.rsqrt (v i) := rfl

/-- A scalar word read at the extended reals. -/
theorem scalarWord (w : BitVec 32) : (Scalar.ofBits .f32 w : Ideal .f32) = Ideal.ofBits .f32 w := rfl

/-! ## The payload at an index -/

/-- THE PAYLOAD AT (p, q). When row p of the loaded block is row r of an array a, and the three loaded rows are the
    columns' bias b, scale g and shift be, the body's result at (p, q) is the normalised entry (r, q) of the
    specification: the bias added and the clamp at zero, the row's mean, its variance, and the scaled, shifted quotient,
    operation by operation. -/
theorem pay_apply (x0 : Vec Ideal S5000x128 .f32) (x1 x2 x3 : Vec Ideal S1x128 .f32)
    (a : Cert.GcnSpec.SN.Idx → EReal) (b g be : Fin 128 → EReal) (p : Fin 5000) (r : Fin 100000)
    (h0 : ∀ k : Fin 128, x0 (ix2 p k) = a (ix2 r k)) (h1 : ∀ k : Fin 128, x1 (ix2 (0 : Fin 1) k) = b k)
    (h2 : ∀ k : Fin 128, x2 (ix2 (0 : Fin 1) k) = g k) (h3 : ∀ k : Fin 128, x3 (ix2 (0 : Fin 1) k) = be k)
    (q : Fin 128) :
    k1_pay1 x0 x1 x2 x3 (ix2 p q) = Cert.GcnSpec.lnAt a b g be r q := by
  unfold k1_pay1
  -- the pointwise operations and the broadcasts, down to the two lane sums
  simp only [addf_apply, mulf_apply, subf_apply, divf_apply, maximumf_apply, broadcast_apply, rsqrt_apply,
    rowBroadcast_apply, colBroadcast_apply, column_apply, shapeCast_self, scalarWord, h0, h1, h2, h3]
  -- the mean's sum and the variance's
  rw [laneSum_apply, laneSum_apply]
  simp only [addf_apply, mulf_apply, subf_apply, divf_apply, maximumf_apply, broadcast_apply,
    rowBroadcast_apply, colBroadcast_apply, column_apply, h0, h1]
  -- the mean inside the variance's summand
  rw [laneSum_apply]
  simp only [addf_apply, maximumf_apply, broadcast_apply, rowBroadcast_apply, h0, h1]
  rfl

/-! ## From blocks to the array -/

theorem zeroOffsets : (![0, 0] : Fin 2 → Nat) = fun _ => 0 := funext fun a => by fin_cases a <;> rfl

/-- The windows' block indices over the grid: at point t the rows' window and the result's are at block (t, 0), the
    three one-row windows at block (0, 0). -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the rows' block at point t is row 5000 t + p of the array. -/
theorem rowsBlock_apply (V : (c : Dev nD) → (b : Ref sig .tc) → Buf (Elt Ideal) ((c : Thread nD τ).loc b)) (c : Dev nD)
    (t : Fin cfg1.N) (p : Fin 5000) (k : Fin 128) (r : Fin 100000) (hr : r.val = 5000 * t.val + p.val) :
    (iblk1 V c 0 t : Vec Ideal S5000x128 .f32) (ix2 p k) = (V c main_v37 : Cert.GcnSpec.SN.Idx → EReal) (ix2 r k) := by
  obtain ⟨e0, e1, -⟩ := blockIndex t
  unfold iblk1
  rw [View.read_apply]
  show V c main_v37 _ = V c main_v37 _
  congr 1
  funext ax
  apply Fin.ext
  match ax with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The bias window's block is, at every point, the whole one-row array. -/
theorem biasBlock_apply (V : (c : Dev nD) → (b : Ref sig .tc) → Buf (Elt Ideal) ((c : Thread nD τ).loc b)) (c : Dev nD)
    (t : Fin cfg1.N) (k : Fin 128) :
    (iblk1 V c 1 t : Vec Ideal S1x128 .f32) (ix2 (0 : Fin 1) k) = V c main_v38 (ix2 (0 : Fin 1) k) := by
  obtain ⟨-, -, e0, e1, -⟩ := blockIndex t
  unfold iblk1
  rw [View.read_apply]
  show V c main_v38 _ = V c main_v38 _
  congr 1
  funext ax
  apply Fin.ext
  match ax with
  | ⟨0, _⟩ => show win1_1.index t (0 : Fin 2) * 1 + 1 * 0 = 0; rw [e0]
  | ⟨1, _⟩ => show win1_1.index t (1 : Fin 2) * 128 + 1 * k.val = k.val; rw [e1]; omega

/-- So is the scale window's. -/
theorem scaleBlock_apply (V : (c : Dev nD) → (b : Ref sig .tc) → Buf (Elt Ideal) ((c : Thread nD τ).loc b)) (c : Dev nD)
    (t : Fin cfg1.N) (k : Fin 128) :
    (iblk1 V c 2 t : Vec Ideal S1x128 .f32) (ix2 (0 : Fin 1) k) = V c main_v39 (ix2 (0 : Fin 1) k) := by
  obtain ⟨-, -, -, -, e0, e1, -⟩ := blockIndex t
  unfold iblk1
  rw [View.read_apply]
  show V c main_v39 _ = V c main_v39 _
  congr 1
  funext ax
  apply Fin.ext
  match ax with
  | ⟨0, _⟩ => show win1_2.index t (0 : Fin 2) * 1 + 1 * 0 = 0; rw [e0]
  | ⟨1, _⟩ => show win1_2.index t (1 : Fin 2) * 128 + 1 * k.val = k.val; rw [e1]; omega

/-- And the shift window's. -/
theorem shiftBlock_apply (V : (c : Dev nD) → (b : Ref sig .tc) → Buf (Elt Ideal) ((c : Thread nD τ).loc b)) (c : Dev nD)
    (t : Fin cfg1.N) (k : Fin 128) :
    (iblk1 V c 3 t : Vec Ideal S1x128 .f32) (ix2 (0 : Fin 1) k) = V c main_v40 (ix2 (0 : Fin 1) k) := by
  obtain ⟨-, -, -, -, -, -, e0, e1, -⟩ := blockIndex t
  unfold iblk1
  rw [View.read_apply]
  show V c main_v40 _ = V c main_v40 _
  congr 1
  funext ax
  apply Fin.ext
  match ax with
  | ⟨0, _⟩ => show win1_3.index t (0 : Fin 2) * 1 + 1 * 0 = 0; rw [e0]
  | ⟨1, _⟩ => show win1_3.index t (1 : Fin 2) * 128 + 1 * k.val = k.val; rw [e1]; omega

/-- WHAT POINT t WRITES BACK is block t of the normalised array: rows 5000 t … 5000 t + 4999 of the specification's
    function of the four arrays as the region finds them. -/
theorem flushed_eq (V : (c : Dev nD) → (b : Ref sig .tc) → Buf (Elt Ideal) ((c : Thread nD τ).loc b)) (c : Dev nD)
    (t : Fin cfg1.N) :
    (dat1 (F := Ideal) V c).flushed 4 t
      = ((cfg1.win 4).blk t).view.read (Elt Ideal)
          (Cert.GcnSpec.ln (V c main_v37) (fun j => V c main_v38 (ix2 (0 : Fin 1) j))
            (fun j => V c main_v39 (ix2 (0 : Fin 1) j)) (fun j => V c main_v40 (ix2 (0 : Fin 1) j))) := by
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S1x128) zeroOffsets]
  obtain ⟨-, -, -, -, -, -, -, -, e0, e1⟩ := blockIndex t
  have hN : t.val < 20 := Nat.lt_of_lt_of_eq t.isLt (N_1 : cfg1.N = 20)
  funext j
  obtain ⟨p, q, rfl⟩ : ∃ (p : Fin 5000) (q : Fin 128), j = ix2 p q := ⟨j 0, j 1, eq_ix2 j⟩
  rw [View.read_apply]
  have hemb : ((cfg1.win 4).blk t).view.emb (ix2 p q)
      = (ix2 (⟨5000 * t.val + p.val, by omega⟩ : Fin 100000) q : Cert.GcnSpec.SN.Idx) := by
    funext ax
    apply Fin.ext
    match ax with
    | ⟨0, _⟩ => show win1_4.index t (0 : Fin 2) * 5000 + 1 * p.val = 5000 * t.val + p.val; rw [e0]; omega
    | ⟨1, _⟩ => show win1_4.index t (1 : Fin 2) * 128 + 1 * q.val = q.val; rw [e1]; omega
  rw [hemb, Cert.GcnSpec.ln_apply]
  exact pay_apply _ _ _ _ _ _ _ _ p ⟨5000 * t.val + p.val, by omega⟩ (fun k => rowsBlock_apply V c t p k _ rfl)
    (fun k => biasBlock_apply V c t k) (fun k => scaleBlock_apply V c t k) (fun k => shiftBlock_apply V c t k) q

/-- An index of the array is in point t's block iff each coordinate is in the block's range on its axis. -/
theorem mem_blk (t : Fin cfg1.N) (i : Cert.GcnSpec.SN.Idx) :
    i ∈ ((cfg1.win 4).blk t).view.set
      ↔ ∀ a : Fin 2, win1_4.index t a * S5000x128.size a ≤ (i a).val
          ∧ (i a).val < win1_4.index t a * S5000x128.size a + S5000x128.size a := by
  show i ∈ ((View.whole main_v41).slice (win1_4.rect t)).set ↔ _
  rw [View.set_slice_whole, Rect.mem_set_unit]
  exact Iff.rfl

/-- Every index of the array is in the block of the point its row falls to: row r belongs to point r / 5000. -/
theorem cover (i : Cert.GcnSpec.SN.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  let t : Fin cfg1.N := ⟨(i 0).val / 5000, by show (i 0).val / 5000 < grid1.N; rw [N_1]; omega⟩
  have ht : t.val = (i 0).val / 5000 := rfl
  obtain ⟨-, -, -, -, -, -, -, -, e0, e1⟩ := blockIndex t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- THE ARRAY AFTER THE REGION: the bias added, the clamp at zero and the row normalisation of the rows' array by the
    three one-row arrays, as the region finds them. -/
theorem final (V : (c : Dev nD) → (b : Ref sig .tc) → Buf (Elt Ideal) ((c : Thread nD τ).loc b)) (c : Dev nD) :
    (dat1 (F := Ideal) V c).arrAt 4 cfg1.N
      = Cert.GcnSpec.ln (V c main_v37) (fun j => V c main_v38 (ix2 (0 : Fin 1) j)) (fun j => V c main_v39 (ix2 (0 : Fin 1) j)) (fun j => V c main_v40 (ix2 (0 : Fin 1) j)) :=
  (dat1 (F := Ideal) V c).arrAt_eq_of_cover 4 _ (fun t _ => flushed_eq V c t) cover

end Cert.KernelIdeal.LnRegion1

end
-- ==== Proof.LnRegion3.lean ====
import proofs.«431147_j19911468384625_1_alg».proof.Proof.Gen.KernelIdeal.Frame
import proofs.«431147_j19911468384625_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LnRegion3
open Cert.KernelIdeal Cert.KernelIdeal.Gen Idealize.ShloMosaic Idealize.ShloMosaic.TcCoe Idealize.ShloMosaic.ValueIdx Idealize.SL.Sem

/-! ## The layout operations of the body, read at an index written by coordinates -/

/-- One row of 128 entries broadcast over 5000 rows reads, at (p, q), the row's entry q. -/
theorem rowBroadcast_apply (v : FVec Ideal S1x128 .f32) (p : Fin 5000) (q : Fin 128) :
    broadcastTo S5000x128 v broadcasts_S1x128_S5000x128 (ix2 p q) = v (ix2 (0 : Fin 1) q) :=
  broadcastTo_1b_ab_apply v broadcasts_S1x128_S5000x128 p q

/-- One column of 5000 entries broadcast over 128 lanes reads, at (p, q), the column's entry p. -/
theorem colBroadcast_apply (w : FVec Ideal S5000x1 .f32) (p : Fin 5000) (q : Fin 128) :
    broadcastTo S5000x128 w broadcasts_S5000x1_S5000x128 (ix2 p q) = w (ix2 p (0 : Fin 1)) := by
  refine broadcastTo_apply w broadcasts_S5000x1_S5000x128 (ix2 p q) (ix2 p (0 : Fin 1)) fun ax => ?_
  match ax with
  | ⟨0, _⟩ => rfl
  | ⟨1, _⟩ => rfl

/-- A vector of 5000 entries viewed as a column reads, at (p, 0), its entry p. -/
theorem column_apply (u : FVec Ideal S5000 .f32) (p : Fin 5000) (z : Fin 1) :
    shapeCast S5000x1 u shapeCasts_S5000_S5000x1 (ix2 p z) = u (ix1 p) :=
  shapeCast_apply u shapeCasts_S5000_S5000x1 _ _ (by
    have hz : z.val = 0 := by omega
    rw [Shape.rowMajor_val_two, Shape.rowMajor_val_one]
    show p.val = p.val * 1 + z.val
    rw [hz, Nat.mul_one, Nat.add_zero])

/-- The sum over the 128 lanes, read at row p, is the sum over k of the entries (p, k). -/
theorem laneSum_apply (src : FVec Ideal S5000x128 .f32) (hφ : FKind.Formats .f32)
    (hacc : (0x00000000#32 : BitVec 32) = 0x00000000#32) (p : Fin 5000) :
    multiReduction .add [1] S5000 src 0x00000000#32 reduces_S5000x128_S5000 hφ hacc (ix1 p)
      = ∑ k : Fin 128, src (ix2 p k) := by
  refine (Ideal.multiReduction_add_single src 0x00000000#32 reduces_S5000x128_S5000 hφ hacc (ix1 p)).trans ?_
  refine Finset.sum_congr rfl fun k _ => congrArg src (funext fun ax => Fin.ext ?_)
  match ax with
  | ⟨0, _⟩ => rfl
  | ⟨1, _⟩ => rfl

/-- The reciprocal square root of a vector at an index is that of the entry. -/
theorem rsqrt_apply {s : Shape} (v : FVec Ideal s .f32) (i : s.Idx) : rsqrt v i = Ideal.rsqrt (v i) := rfl

/-- A scalar word read at the extended reals. -/
theorem scalarWord (w : BitVec 32) : (Scalar.ofBits .f32 w : Ideal .f32) = Ideal.ofBits .f32 w := rfl

/-! ## The payload at an index -/

/-- THE PAYLOAD AT (p, q). When row p of the loaded block is row r of an array a, and the three loaded rows are the
    columns' bias b, scale g and shift be, the body's result at (p, q) is the normalised entry (r, q) of the
    specification: the bias added and the clamp at zero, the row's mean, its variance, and the scaled, shifted quotient,
    operation by operation. -/
theorem pay_apply (x0 : Vec Ideal S5000x128 .f32) (x1 x2 x3 : Vec Ideal S1x128 .f32)
    (a : Cert.GcnSpec.SN.Idx → EReal) (b g be : Fin 128 → EReal) (p : Fin 5000) (r : Fin 100000)
    (h0 : ∀ k : Fin 128, x0 (ix2 p k) = a (ix2 r k)) (h1 : ∀ k : Fin 128, x1 (ix2 (0 : Fin 1) k) = b k)
    (h2 : ∀ k : Fin 128, x2 (ix2 (0 : Fin 1) k) = g k) (h3 : ∀ k : Fin 128, x3 (ix2 (0 : Fin 1) k) = be k)
    (q : Fin 128) :
    k3_pay1 x0 x1 x2 x3 (ix2 p q) = Cert.GcnSpec.lnAt a b g be r q := by
  unfold k3_pay1
  -- the pointwise operations and the broadcasts, down to the two lane sums
  simp only [addf_apply, mulf_apply, subf_apply, divf_apply, maximumf_apply, broadcast_apply, rsqrt_apply,
    rowBroadcast_apply, colBroadcast_apply, column_apply, shapeCast_self, scalarWord, h0, h1, h2, h3]
  -- the mean's sum and the variance's
  rw [laneSum_apply, laneSum_apply]
  simp only [addf_apply, mulf_apply, subf_apply, divf_apply, maximumf_apply, broadcast_apply,
    rowBroadcast_apply, colBroadcast_apply, column_apply, h0, h1]
  -- the mean inside the variance's summand
  rw [laneSum_apply]
  simp only [addf_apply, maximumf_apply, broadcast_apply, rowBroadcast_apply, h0, h1]
  rfl

/-! ## From blocks to the array -/

theorem zeroOffsets : (![0, 0] : Fin 2 → Nat) = fun _ => 0 := funext fun a => by fin_cases a <;> rfl

/-- The windows' block indices over the grid: at point t the rows' window and the result's are at block (t, 0), the
    three one-row windows at block (0, 0). -/
theorem blockIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of the rows' block at point t is row 5000 t + p of the array. -/
theorem rowsBlock_apply (V : (c : Dev nD) → (b : Ref sig .tc) → Buf (Elt Ideal) ((c : Thread nD τ).loc b)) (c : Dev nD)
    (t : Fin cfg3.N) (p : Fin 5000) (k : Fin 128) (r : Fin 100000) (hr : r.val = 5000 * t.val + p.val) :
    (iblk3 V c 0 t : Vec Ideal S5000x128 .f32) (ix2 p k) = (V c main_v49 : Cert.GcnSpec.SN.Idx → EReal) (ix2 r k) := by
  obtain ⟨e0, e1, -⟩ := blockIndex t
  unfold iblk3
  rw [View.read_apply]
  show V c main_v49 _ = V c main_v49 _
  congr 1
  funext ax
  apply Fin.ext
  match ax with
  | ⟨0, _⟩ => show win3_0.index t (0 : Fin 2) * 5000 + 1 * p.val = r.val; rw [e0, hr]; omega
  | ⟨1, _⟩ => show win3_0.index t (1 : Fin 2) * 128 + 1 * k.val = k.val; rw [e1]; omega

/-- The bias window's block is, at every point, the whole one-row array. -/
theorem biasBlock_apply (V : (c : Dev nD) → (b : Ref sig .tc) → Buf (Elt Ideal) ((c : Thread nD τ).loc b)) (c : Dev nD)
    (t : Fin cfg3.N) (k : Fin 128) :
    (iblk3 V c 1 t : Vec Ideal S1x128 .f32) (ix2 (0 : Fin 1) k) = V c main_v50 (ix2 (0 : Fin 1) k) := by
  obtain ⟨-, -, e0, e1, -⟩ := blockIndex t
  unfold iblk3
  rw [View.read_apply]
  show V c main_v50 _ = V c main_v50 _
  congr 1
  funext ax
  apply Fin.ext
  match ax with
  | ⟨0, _⟩ => show win3_1.index t (0 : Fin 2) * 1 + 1 * 0 = 0; rw [e0]
  | ⟨1, _⟩ => show win3_1.index t (1 : Fin 2) * 128 + 1 * k.val = k.val; rw [e1]; omega

/-- So is the scale window's. -/
theorem scaleBlock_apply (V : (c : Dev nD) → (b : Ref sig .tc) → Buf (Elt Ideal) ((c : Thread nD τ).loc b)) (c : Dev nD)
    (t : Fin cfg3.N) (k : Fin 128) :
    (iblk3 V c 2 t : Vec Ideal S1x128 .f32) (ix2 (0 : Fin 1) k) = V c main_v51 (ix2 (0 : Fin 1) k) := by
  obtain ⟨-, -, -, -, e0, e1, -⟩ := blockIndex t
  unfold iblk3
  rw [View.read_apply]
  show V c main_v51 _ = V c main_v51 _
  congr 1
  funext ax
  apply Fin.ext
  match ax with
  | ⟨0, _⟩ => show win3_2.index t (0 : Fin 2) * 1 + 1 * 0 = 0; rw [e0]
  | ⟨1, _⟩ => show win3_2.index t (1 : Fin 2) * 128 + 1 * k.val = k.val; rw [e1]; omega

/-- And the shift window's. -/
theorem shiftBlock_apply (V : (c : Dev nD) → (b : Ref sig .tc) → Buf (Elt Ideal) ((c : Thread nD τ).loc b)) (c : Dev nD)
    (t : Fin cfg3.N) (k : Fin 128) :
    (iblk3 V c 3 t : Vec Ideal S1x128 .f32) (ix2 (0 : Fin 1) k) = V c main_v52 (ix2 (0 : Fin 1) k) := by
  obtain ⟨-, -, -, -, -, -, e0, e1, -⟩ := blockIndex t
  unfold iblk3
  rw [View.read_apply]
  show V c main_v52 _ = V c main_v52 _
  congr 1
  funext ax
  apply Fin.ext
  match ax with
  | ⟨0, _⟩ => show win3_3.index t (0 : Fin 2) * 1 + 1 * 0 = 0; rw [e0]
  | ⟨1, _⟩ => show win3_3.index t (1 : Fin 2) * 128 + 1 * k.val = k.val; rw [e1]; omega

/-- WHAT POINT t WRITES BACK is block t of the normalised array: rows 5000 t … 5000 t + 4999 of the specification's
    function of the four arrays as the region finds them. -/
theorem flushed_eq (V : (c : Dev nD) → (b : Ref sig .tc) → Buf (Elt Ideal) ((c : Thread nD τ).loc b)) (c : Dev nD)
    (t : Fin cfg3.N) :
    (dat3 (F := Ideal) V c).flushed 4 t
      = ((cfg3.win 4).blk t).view.read (Elt Ideal)
          (Cert.GcnSpec.ln (V c main_v49) (fun j => V c main_v50 (ix2 (0 : Fin 1) j))
            (fun j => V c main_v51 (ix2 (0 : Fin 1) j)) (fun j => V c main_v52 (ix2 (0 : Fin 1) j))) := by
  show (cfg3.win 4).cut (grid3.coords t) ((dat3 V c).after 4 t) = _
  rw [after3_4]
  unfold out3_4
  rw [View.canon_unit_zero zeroOffsets]
  simp only [View.ld_unit_zero (S := S5000x128) zeroOffsets, View.ld_unit_zero (S := S1x128) zeroOffsets]
  obtain ⟨-, -, -, -, -, -, -, -, e0, e1⟩ := blockIndex t
  have hN : t.val < 20 := Nat.lt_of_lt_of_eq t.isLt (N_3 : cfg3.N = 20)
  funext j
  obtain ⟨p, q, rfl⟩ : ∃ (p : Fin 5000) (q : Fin 128), j = ix2 p q := ⟨j 0, j 1, eq_ix2 j⟩
  rw [View.read_apply]
  have hemb : ((cfg3.win 4).blk t).view.emb (ix2 p q)
      = (ix2 (⟨5000 * t.val + p.val, by omega⟩ : Fin 100000) q : Cert.GcnSpec.SN.Idx) := by
    funext ax
    apply Fin.ext
    match ax with
    | ⟨0, _⟩ => show win3_4.index t (0 : Fin 2) * 5000 + 1 * p.val = 5000 * t.val + p.val; rw [e0]; omega
    | ⟨1, _⟩ => show win3_4.index t (1 : Fin 2) * 128 + 1 * q.val = q.val; rw [e1]; omega
  rw [hemb, Cert.GcnSpec.ln_apply]
  exact pay_apply _ _ _ _ _ _ _ _ p ⟨5000 * t.val + p.val, by omega⟩ (fun k => rowsBlock_apply V c t p k _ rfl)
    (fun k => biasBlock_apply V c t k) (fun k => scaleBlock_apply V c t k) (fun k => shiftBlock_apply V c t k) q

/-- An index of the array is in point t's block iff each coordinate is in the block's range on its axis. -/
theorem mem_blk (t : Fin cfg3.N) (i : Cert.GcnSpec.SN.Idx) :
    i ∈ ((cfg3.win 4).blk t).view.set
      ↔ ∀ a : Fin 2, win3_4.index t a * S5000x128.size a ≤ (i a).val
          ∧ (i a).val < win3_4.index t a * S5000x128.size a + S5000x128.size a := by
  show i ∈ ((View.whole main_v53).slice (win3_4.rect t)).set ↔ _
  rw [View.set_slice_whole, Rect.mem_set_unit]
  exact Iff.rfl

/-- Every index of the array is in the block of the point its row falls to: row r belongs to point r / 5000. -/
theorem cover (i : Cert.GcnSpec.SN.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  let t : Fin cfg3.N := ⟨(i 0).val / 5000, by show (i 0).val / 5000 < grid3.N; rw [N_3]; omega⟩
  have ht : t.val = (i 0).val / 5000 := rfl
  obtain ⟨-, -, -, -, -, -, -, -, e0, e1⟩ := blockIndex t
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    rw [e0, ht]; omega
  | ⟨1, _⟩ =>
    show win3_4.index t (1 : Fin 2) * 128 ≤ (i 1).val ∧ (i 1).val < win3_4.index t (1 : Fin 2) * 128 + 128
    rw [e1]; omega

/-- THE ARRAY AFTER THE REGION: the bias added, the clamp at zero and the row normalisation of the rows' array by the
    three one-row arrays, as the region finds them. -/
theorem final (V : (c : Dev nD) → (b : Ref sig .tc) → Buf (Elt Ideal) ((c : Thread nD τ).loc b)) (c : Dev nD) :
    (dat3 (F := Ideal) V c).arrAt 4 cfg3.N
      = Cert.GcnSpec.ln (V c main_v49) (fun j => V c main_v50 (ix2 (0 : Fin 1) j)) (fun j => V c main_v51 (ix2 (0 : Fin 1) j)) (fun j => V c main_v52 (ix2 (0 : Fin 1) j)) :=
  (dat3 (F := Ideal) V c).arrAt_eq_of_cover 4 _ (fun t _ => flushed_eq V c t) cover

end Cert.KernelIdeal.LnRegion3

end
-- ==== Proof.KernelValue.lean ====
/-
  The idealized kernel program's result is `gcn` of its arguments, when every edge source is a node number.

  The fold through @main gives the result as LN (AGG' (LN (AGG' (x · W1)) …) · W2)) … with AGG' the aggregation whose
  take fills out-of-range rows. When every entry of the source list spells a number below the node count the fill never
  happens, AGG' is the plain aggregation, and the result is the function `gcn` that the reference program computes.
-/
import proofs.«431147_j19911468384625_1_alg».proof.Proof.KernelFold
import proofs.«431147_j19911468384625_1_alg».proof.Proof.TakeBridge
import proofs.«431147_j19911468384625_1_alg».proof.Proof.RefValue
import proofs.«431147_j19911468384625_1_alg».proof.Proof.MatmulRegion0
import proofs.«431147_j19911468384625_1_alg».proof.Proof.MatmulRegion2
import proofs.«431147_j19911468384625_1_alg».proof.Proof.LnRegion1
import proofs.«431147_j19911468384625_1_alg».proof.Proof.LnRegion3

set_option maxRecDepth 16384

noncomputable section

namespace Cert.GcnBridge

open Cert.KernelIdeal Cert.KernelIdeal.Gen Cert.KernelIdeal.Fold
open Idealize.ShloMosaic Idealize.ShloMosaic.TcCoe Idealize.ShloMosaic.ValueIdx Idealize.SL.Sem

/-- A 128-vector laid out as a one-row matrix reads back, entry by entry, as the vector. -/
theorem rowc_eq (v : FVec Ideal S128 .f32) : rowc v = fun j => v (ix1 j) := by
  funext j
  exact shapeCast_apply v _ _ _ (by rw [Shape.rowMajor_val_one, Shape.rowMajor_val_two]; simp [ix1, ix2])

/-- The aggregation with the guarded take is the plain one when every source word is a row number. -/
theorem aggK_plain (h : FVec Ideal S100000x128 .f32) (s d : IVec S1700000 32) (nu : FVec Ideal S1700000 .f32)
    (hs : ∀ p : S1700000.Idx, (s p).toNat < 100000) : aggK h s d nu = aggPlain h s d nu :=
  Cert.KernelIdeal.TakeBridge.aggK_eq h s d nu hs

/-- The result array at the last boundary of the kernel program's @main is `gcn` of the launch memory's arguments. -/
theorem kernel_value (m : (ℓ : Loc nD τ sig) → Buf (Elt Ideal) ℓ) (ρ : Dev nD → PrngReg) (c : Dev nD)
    (hs : ∀ p : S1700000.Idx, (sK (m ((c : Thread nD τ).loc main_arg1)) p).toNat < 100000) :
    W11 m ρ c (Proc.devRef .tc main_v53)
      = gcn (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) := by
  rw [Cert.KernelIdeal.Fold.result m ρ Cert.KernelIdeal.MatmulRegion0.final Cert.KernelIdeal.LnRegion1.final
    Cert.KernelIdeal.MatmulRegion2.final Cert.KernelIdeal.LnRegion3.final c]
  rw [aggK_plain _ _ _ _ hs, aggK_plain _ _ _ _ hs]
  simp only [rowc_eq]
  rfl

end Cert.GcnBridge

end
-- ==== Proof.SrcRange.lean ====
/-
  The precondition's last conjunct, read entry by entry.

  The edge array has two rows of 1600000 words; row 0 holds each edge's source node. The precondition ends with
  "every word of row 0 is, as a signed number, at least 0 and less than 100000": the conjunction of two word
  comparisons reduced by "and" over all 1600000 entries. From the precondition being all ones this file recovers the
  two comparisons at each entry.
-/
import proofs.«431147_j19911468384625_1_alg».proof.Pre_finite_inputs
import Idealize.ShloMosaic.Lib.ReduceAll
import Idealize.ShloMosaic.Lib.ValueIdx

noncomputable section

namespace Cert.SrcRange

open Idealize.ShloMosaic Cert.Pre_finite_inputs Cert.Pre_finite_inputs.Facts

variable [Cert.Pre_finite_inputs.Facts]

/-- Row 0 of the edge array as a vector of 1600000 words. -/
def srcRow (e : IVec S2x1600000 32) : IVec S1600000 32 :=
  shapeCast S1600000 (extractStridedSlice S1x1600000 ![0, 0] e slices_S2x1600000_S1x1600000_0_0) shapeCasts_S1x1600000_S1600000

instance : Subsingleton S_.Idx := ⟨fun a b => funext fun d => d.elim0⟩

/-- Under the precondition every source word passes both comparisons: signed, it is at least 0 and below 100000. -/
theorem src_cmp (a0 : FVec Ideal S100000x128 .f32) (a1 : IVec S2x1600000 32) (a2 : FVec Ideal S128x128 .f32)
    (a3 : FVec Ideal S128 .f32) (a4 : FVec Ideal S128x128 .f32) (a5 a6 a7 a8 a9 : FVec Ideal S128 .f32)
    (h : fn (F := Ideal) a0 a1 a2 a3 a4 a5 a6 a7 a8 a9 = fun _ => 1#1) (i : S1600000.Idx) :
    IntOp.cmpi .sge (srcRow a1 i) 0#32 = 1#1 ∧ IntOp.cmpi .slt (srcRow a1 i) 100000#32 = 1#1 := by
  have h0 := congrFun h ValueIdx.ix0
  unfold fn fn_part1 fn_part2 fn_part3 at h0
  dsimp only at h0
  obtain ⟨-, h1⟩ := IntOp.andi_eq_one.1 h0
  have h2 := Host.reduce_andi_all _ _ _ _ _ h1 i
  exact IntOp.andi_eq_one.1 h2

end Cert.SrcRange

end
-- ==== Proof.lean ====
/-
  The certificate: the three frames, the (empty) idealization ledger, and the equivalence over the extended reals of a
  two-layer graph convolution written with tiled kernels against its plain reference.

  Both programs compute, from node features x, an edge array, two weight matrices, two biases and two pairs of scale
  and shift, the function
      gcn = LN (AGG (LN (AGG (x · W1)) b1 g1 be1 · W2)) b2 g2 be2
  where x · W is the matrix product, AGG gathers each edge's source row, scales it by the edge's weight (the product of
  the endpoints' inverse square-root degrees, self-loops included) and sums into the edge's destination row, and LN adds
  the bias, clamps below at zero and normalises each row by its mean and variance.
  The kernel program computes the products and the normalisations in row tiles of 5000 and takes source rows with a
  guarded take that fills rows whose index is out of range; the reference gathers plainly. The precondition's last
  conjunct — every edge source is, as a signed word, at least 0 and below the node count 100000 — makes the guard pass
  everywhere, so the two aggregations agree. No law of the extended reals beyond reading sums term by term is used: the
  two programs apply the same operations in the same order.
-/
import proofs.«431147_j19911468384625_1_alg».proof.Defs
import proofs.«431147_j19911468384625_1_alg».proof.Proof.Gen.Kernel
import proofs.«431147_j19911468384625_1_alg».proof.Proof.Gen.Kernel.Frame
import proofs.«431147_j19911468384625_1_alg».proof.Proof.Gen.KernelIdeal
import proofs.«431147_j19911468384625_1_alg».proof.Proof.Gen.KernelIdeal.Frame
import proofs.«431147_j19911468384625_1_alg».proof.Proof.Gen.ReferenceIdeal
import proofs.«431147_j19911468384625_1_alg».proof.Proof.Gen.Pre_finite_inputs
import proofs.«431147_j19911468384625_1_alg».proof.Proof.KernelRun
import proofs.«431147_j19911468384625_1_alg».proof.Proof.KernelValue
import proofs.«431147_j19911468384625_1_alg».proof.Proof.RefRun
import proofs.«431147_j19911468384625_1_alg».proof.Proof.RefRead
import proofs.«431147_j19911468384625_1_alg».proof.Proof.RefValue
import proofs.«431147_j19911468384625_1_alg».proof.Proof.SrcRange
import proofs.«431147_j19911468384625_1_alg».proof.Proof.TakeBridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the result array at `gcn` of the
    arguments: the kernel's by the fold through its four regions (the precondition's range conjunct making its guarded
    take the plain gather), the reference's by its run read stage by stage. -/
theorem algebraic : Cert.algebraic_KernelIdeal_ReferenceIdeal := by
  intro m ρ m' ρ' hpre hagree
  have hs : ∀ (c : Dev Cert.KernelIdeal.nD) (p : Cert.KernelIdeal.S1700000.Idx),
      (Cert.KernelIdeal.Fold.sK (m ((c.tc : Thread Cert.KernelIdeal.nD Cert.KernelIdeal.τ).loc Cert.KernelIdeal.main_arg1)) p).toNat < 100000 :=
    fun c p => Cert.KernelIdeal.TakeBridge.sK_lt _ (fun i => Cert.SrcRange.src_cmp _ _ _ _ _ _ _ _ _ _ (hpre c) i) p
  refine ⟨fun c => Cert.GcnBridge.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.GcnBridge.kernel_value m ρ c (hs c)), (h c).2⟩)
      (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v139_eq, Cert.GcnBridge.ref_value, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
